-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x384 : Shape := ⟨2, ![10000, 384]⟩
abbrev S2x200000 : Shape := ⟨2, ![2, 200000]⟩
abbrev S48x384 : Shape := ⟨2, ![48, 384]⟩
abbrev S48 : Shape := ⟨1, ![48]⟩
abbrev S384x48 : Shape := ⟨2, ![384, 48]⟩
abbrev S384 : Shape := ⟨1, ![384]⟩
abbrev S_ : Shape := ⟨0, ![]⟩

class Facts : Prop where
  bcast_S_S10000x384 : S_.BroadcastsInDim S10000x384 (![] : Fin 0 → Fin S10000x384.rank)
  reducesTo_S10000x384_S_d0_1 : S10000x384.ReducesTo [0, 1] S_
  h_S_ : 0 < S_.numel
  bcast_S_S48x384 : S_.BroadcastsInDim S48x384 (![] : Fin 0 → Fin S48x384.rank)
  reducesTo_S48x384_S_d0_1 : S48x384.ReducesTo [0, 1] S_
  bcast_S_S48 : S_.BroadcastsInDim S48 (![] : Fin 0 → Fin S48.rank)
  reducesTo_S48_S_d0 : S48.ReducesTo [0] S_
  bcast_S_S384x48 : S_.BroadcastsInDim S384x48 (![] : Fin 0 → Fin S384x48.rank)
  reducesTo_S384x48_S_d0_1 : S384x48.ReducesTo [0, 1] S_
  bcast_S_S384 : S_.BroadcastsInDim S384 (![] : Fin 0 → Fin S384.rank)
  reducesTo_S384_S_d0 : S384.ReducesTo [0] S_

variable [Facts]

def fn_part1 {F : FTy → Type} [FloatOps F] (main_arg5 : FVec F S384 .f32) (main_v13 : IVec S_ 1) (main_v16 : IVec S384x48 1) : IVec S_ 1 :=
  let main_c_5 : IVec S_ 1 := constantI S_ 1 1#1
  let main_v17 : IVec S_ 1 := (fun x v => Host.reduce IntOp.andi x v reducesTo_S384x48_S_d0_1 h_S_) main_v16 main_c_5
  let main_v18 : IVec S_ 1 := andi main_v13 main_v17
  let main_v19 : FVec F S384 .f32 := Host.absf main_arg5
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  main_v23

def fn {F : FTy → Type} [FloatOps F] (main_arg0 : FVec F S10000x384 .f32) (main_arg1 : IVec S2x200000 32) (main_arg2 : FVec F S48x384 .f32) (main_arg3 : FVec F S48 .f32) (main_arg4 : FVec F S384x48 .f32) (main_arg5 : FVec F S384 .f32) : IVec S_ 1 :=
  let main_v0 : FVec F S10000x384 .f32 := Host.absf main_arg0
  let main_cst : FVec F S_ .f32 := constant S_ .f32 0x7F800000#32
  let main_v1 : FVec F S10000x384 .f32 := broadcastInDim S10000x384 ![] bcast_S_S10000x384 main_cst
  let main_v2 : IVec S10000x384 1 := cmpf .olt main_v0 main_v1
  let main_c : IVec S_ 1 := constantI S_ 1 1#1
  let main_v3 : IVec S_ 1 := (fun x v => Host.reduce IntOp.andi x v reducesTo_S10000x384_S_d0_1 h_S_) main_v2 main_c
  let main_v4 : FVec F S48x384 .f32 := Host.absf main_arg2
  let main_cst_0 : FVec F S_ .f32 := constant S_ .f32 0x7F800000#32
  let main_v5 : FVec F S48x384 .f32 := broadcastInDim S48x384 ![] bcast_S_S48x384 main_cst_0
  let main_v6 : IVec S48x384 1 := cmpf .olt main_v4 main_v5
  let main_c_1 : IVec S_ 1 := constantI S_ 1 1#1
  let main_v7 : IVec S_ 1 := (fun x v => Host.reduce IntOp.andi x v reducesTo_S48x384_S_d0_1 h_S_) main_v6 main_c_1
  let main_v8 : IVec S_ 1 := andi main_v3 main_v7
  let main_v9 : FVec F S48 .f32 := Host.absf main_arg3
  let main_cst_2 : FVec F S_ .f32 := constant S_ .f32 0x7F800000#32
  let main_v10 : FVec F S48 .f32 := broadcastInDim S48 ![] bcast_S_S48 main_cst_2
  let main_v11 : IVec S48 1 := cmpf .olt main_v9 main_v10
  let main_c_3 : IVec S_ 1 := constantI S_ 1 1#1
  let main_v12 : IVec S_ 1 := (fun x v => Host.reduce IntOp.andi x v reducesTo_S48_S_d0 h_S_) main_v11 main_c_3
  let main_v13 : IVec S_ 1 := andi main_v8 main_v12
  let main_v14 : FVec F S384x48 .f32 := Host.absf main_arg4
  let main_cst_4 : FVec F S_ .f32 := constant S_ .f32 0x7F800000#32
  let main_v15 : FVec F S384x48 .f32 := broadcastInDim S384x48 ![] bcast_S_S384x48 main_cst_4
  let main_v16 : IVec S384x48 1 := cmpf .olt main_v14 main_v15
  fn_part1 (F := F) main_arg5 main_v13 main_v16
-- ==== Kernel.lean ====
abbrev S10000x384 : Shape := ⟨2, ![10000, 384]⟩
abbrev S2x200000 : Shape := ⟨2, ![2, 200000]⟩
abbrev S48x384 : Shape := ⟨2, ![48, 384]⟩
abbrev S48 : Shape := ⟨1, ![48]⟩
abbrev S384x48 : Shape := ⟨2, ![384, 48]⟩
abbrev S384 : Shape := ⟨1, ![384]⟩
abbrev S10000 : Shape := ⟨1, ![10000]⟩
abbrev S1x200000 : Shape := ⟨2, ![1, 200000]⟩
abbrev S200000 : Shape := ⟨1, ![200000]⟩
abbrev S210000 : Shape := ⟨1, ![210000]⟩
abbrev S_ : Shape := ⟨0, ![]⟩
abbrev S210000x1 : Shape := ⟨2, ![210000, 1]⟩
abbrev S10000x48 : Shape := ⟨2, ![10000, 48]⟩
abbrev S2000x384 : Shape := ⟨2, ![2000, 384]⟩
abbrev S2000x48 : Shape := ⟨2, ![2000, 48]⟩
abbrev S210000x48 : Shape := ⟨2, ![210000, 48]⟩
abbrev S1x48 : Shape := ⟨2, ![1, 48]⟩
abbrev S210000x384 : Shape := ⟨2, ![210000, 384]⟩
abbrev S1x384 : Shape := ⟨2, ![1, 384]⟩

abbrev nBuf : Space → Nat
  | .hbm => 86
  | .vmem => 20
  | .smem => 0
  | _ => 0

abbrev bufTy : (tb : Table) → Fin (tcTables nBuf tb) → BufTy
  | .hbm, ⟨0, _⟩ => ⟨S10000x384, .f32⟩
  | .hbm, ⟨1, _⟩ => ⟨S2x200000, .i32⟩
  | .hbm, ⟨2, _⟩ => ⟨S48x384, .f32⟩
  | .hbm, ⟨3, _⟩ => ⟨S48, .f32⟩
  | .hbm, ⟨4, _⟩ => ⟨S384x48, .f32⟩
  | .hbm, ⟨5, _⟩ => ⟨S384, .f32⟩
  | .hbm, ⟨6, _⟩ => ⟨S10000, .i32⟩
  | .hbm, ⟨7, _⟩ => ⟨S1x200000, .i32⟩
  | .hbm, ⟨8, _⟩ => ⟨S200000, .i32⟩
  | .hbm, ⟨9, _⟩ => ⟨S210000, .i32⟩
  | .hbm, ⟨10, _⟩ => ⟨S1x200000, .i32⟩
  | .hbm, ⟨11, _⟩ => ⟨S200000, .i32⟩
  | .hbm, ⟨12, _⟩ => ⟨S210000, .i32⟩
  | .hbm, ⟨13, _⟩ => ⟨S_, .f32⟩
  | .hbm, ⟨14, _⟩ => ⟨S210000, .f32⟩
  | .hbm, ⟨15, _⟩ => ⟨S_, .f32⟩
  | .hbm, ⟨16, _⟩ => ⟨S10000, .f32⟩
  | .hbm, ⟨17, _⟩ => ⟨S210000x1, .i32⟩
  | .hbm, ⟨18, _⟩ => ⟨S10000, .f32⟩
  | .hbm, ⟨19, _⟩ => ⟨S_, .f32⟩
  | .hbm, ⟨20, _⟩ => ⟨S10000, .f32⟩
  | .hbm, ⟨21, _⟩ => ⟨S10000, .i1⟩
  | .hbm, ⟨22, _⟩ => ⟨S10000, .f32⟩
  | .hbm, ⟨23, _⟩ => ⟨S_, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S_, .i32⟩
  | .hbm, ⟨28, _⟩ => ⟨S210000, .i32⟩
  | .hbm, ⟨29, _⟩ => ⟨S210000, .i1⟩
  | .hbm, ⟨30, _⟩ => ⟨S_, .i32⟩
  | .hbm, ⟨31, _⟩ => ⟨S210000, .i32⟩
  | .hbm, ⟨32, _⟩ => ⟨S210000, .i32⟩
  | .hbm, ⟨33, _⟩ => ⟨S210000, .i32⟩
  | .hbm, ⟨34, _⟩ => ⟨S210000x1, .i32⟩
  | .hbm, ⟨35, _⟩ => ⟨S210000, .f32⟩
  | .hbm, ⟨36, _⟩ => ⟨S_, .i32⟩
  | .hbm, ⟨37, _⟩ => ⟨S210000, .i32⟩
  | .hbm, ⟨38, _⟩ => ⟨S210000, .i1⟩
  | .hbm, ⟨39, _⟩ => ⟨S_, .i32⟩
  | .hbm, ⟨40, _⟩ => ⟨S210000, .i32⟩
  | .hbm, ⟨41, _⟩ => ⟨S210000, .i32⟩
  | .hbm, ⟨42, _⟩ => ⟨S210000, .i32⟩
  | .hbm, ⟨43, _⟩ => ⟨S210000x1, .i32⟩
  | .hbm, ⟨44, _⟩ => ⟨S210000, .f32⟩
  | .hbm, ⟨45, _⟩ => ⟨S210000, .f32⟩
  | .hbm, ⟨46, _⟩ => ⟨S384x48, .f32⟩
  | .hbm, ⟨47, _⟩ => ⟨S10000x48, .f32⟩
  | .hbm, ⟨48, _⟩ => ⟨S_, .i32⟩
  | .hbm, ⟨49, _⟩ => ⟨S210000, .i32⟩
  | .hbm, ⟨50, _⟩ => ⟨S210000, .i1⟩
  | .hbm, ⟨51, _⟩ => ⟨S_, .i32⟩
  | .hbm, ⟨52, _⟩ => ⟨S210000, .i32⟩
  | .hbm, ⟨53, _⟩ => ⟨S210000, .i32⟩
  | .hbm, ⟨54, _⟩ => ⟨S210000, .i32⟩
  | .hbm, ⟨55, _⟩ => ⟨S210000x1, .i32⟩
  | .hbm, ⟨56, _⟩ => ⟨S210000x48, .f32⟩
  | .hbm, ⟨57, _⟩ => ⟨S210000x1, .f32⟩
  | .hbm, ⟨58, _⟩ => ⟨S210000x48, .f32⟩
  | .hbm, ⟨59, _⟩ => ⟨S210000x48, .f32⟩
  | .hbm, ⟨60, _⟩ => ⟨S_, .f32⟩
  | .hbm, ⟨61, _⟩ => ⟨S10000x48, .f32⟩
  | .hbm, ⟨62, _⟩ => ⟨S210000x1, .i32⟩
  | .hbm, ⟨63, _⟩ => ⟨S10000x48, .f32⟩
  | .hbm, ⟨64, _⟩ => ⟨S1x48, .f32⟩
  | .hbm, ⟨65, _⟩ => ⟨S10000x48, .f32⟩
  | .hbm, ⟨66, _⟩ => ⟨S48x384, .f32⟩
  | .hbm, ⟨67, _⟩ => ⟨S10000x384, .f32⟩
  | .hbm, ⟨68, _⟩ => ⟨S_, .i32⟩
  | .hbm, ⟨69, _⟩ => ⟨S210000, .i32⟩
  | .hbm, ⟨70, _⟩ => ⟨S210000, .i1⟩
  | .hbm, ⟨71, _⟩ => ⟨S_, .i32⟩
  | .hbm, ⟨72, _⟩ => ⟨S210000, .i32⟩
  | .hbm, ⟨73, _⟩ => ⟨S210000, .i32⟩
  | .hbm, ⟨74, _⟩ => ⟨S210000, .i32⟩
  | .hbm, ⟨75, _⟩ => ⟨S210000x1, .i32⟩
  | .hbm, ⟨76, _⟩ => ⟨S210000x384, .f32⟩
  | .hbm, ⟨77, _⟩ => ⟨S210000x1, .f32⟩
  | .hbm, ⟨78, _⟩ => ⟨S210000x384, .f32⟩
  | .hbm, ⟨79, _⟩ => ⟨S210000x384, .f32⟩
  | .hbm, ⟨80, _⟩ => ⟨S_, .f32⟩
  | .hbm, ⟨81, _⟩ => ⟨S10000x384, .f32⟩
  | .hbm, ⟨82, _⟩ => ⟨S210000x1, .i32⟩
  | .hbm, ⟨83, _⟩ => ⟨S10000x384, .f32⟩
  | .hbm, ⟨84, _⟩ => ⟨S1x384, .f32⟩
  | .hbm, ⟨85, _⟩ => ⟨S10000x384, .f32⟩
  | .local _ .vmem, ⟨0, _⟩ => ⟨S2000x384, .f32⟩
  | .local _ .vmem, ⟨1, _⟩ => ⟨S2000x384, .f32⟩
  | .local _ .vmem, ⟨2, _⟩ => ⟨S384x48, .f32⟩
  | .local _ .vmem, ⟨3, _⟩ => ⟨S2000x48, .f32⟩
  | .local _ .vmem, ⟨4, _⟩ => ⟨S2000x48, .f32⟩
  | .local _ .vmem, ⟨5, _⟩ => ⟨S2000x48, .f32⟩
  | .local _ .vmem, ⟨6, _⟩ => ⟨S2000x48, .f32⟩
  | .local _ .vmem, ⟨7, _⟩ => ⟨S1x48, .f32⟩
  | .local _ .vmem, ⟨8, _⟩ => ⟨S2000x48, .f32⟩
  | .local _ .vmem, ⟨9, _⟩ => ⟨S2000x48, .f32⟩
  | .local _ .vmem, ⟨10, _⟩ => ⟨S2000x48, .f32⟩
  | .local _ .vmem, ⟨11, _⟩ => ⟨S2000x48, .f32⟩
  | .local _ .vmem, ⟨12, _⟩ => ⟨S48x384, .f32⟩
  | .local _ .vmem, ⟨13, _⟩ => ⟨S2000x384, .f32⟩
  | .local _ .vmem, ⟨14, _⟩ => ⟨S2000x384, .f32⟩
  | .local _ .vmem, ⟨15, _⟩ => ⟨S2000x384, .f32⟩
  | .local _ .vmem, ⟨16, _⟩ => ⟨S2000x384, .f32⟩
  | .local _ .vmem, ⟨17, _⟩ => ⟨S1x384, .f32⟩
  | .local _ .vmem, ⟨18, _⟩ => ⟨S2000x384, .f32⟩
  | .local _ .vmem, ⟨19, _⟩ => ⟨S2000x384, .f32⟩
  | _, _ => ⟨S10000x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_9 : Ref sig .tc := ⟨.hbm, 68, rfl⟩
abbrev main_v49 : Ref sig .tc := ⟨.hbm, 69, rfl⟩
abbrev main_v50 : Ref sig .tc := ⟨.hbm, 70, rfl⟩
abbrev main_c_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x48 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x48 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x48 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x48 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S48x384 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x384 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x384 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x384 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x384 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x200000_S1x200000_0_0 : S2x200000.Slices ![0, 0] S1x200000
  shapeCasts_S1x200000_S200000 : S1x200000.ShapeCasts S200000
  concatenates_S200000_S10000_S210000_d0 : Shape.Concatenates [S200000, S10000] S210000 0
  slices_S2x200000_S1x200000_1_0 : S2x200000.Slices ![1, 0] S1x200000
  bcast_S_S210000 : S_.BroadcastsInDim S210000 (![] : Fin 0 → Fin S210000.rank)
  bcast_S_S10000 : S_.BroadcastsInDim S10000 (![] : Fin 0 → Fin S10000.rank)
  bcast_S210000_S210000x1_0 : S210000.BroadcastsInDim S210000x1 (![0] : Fin 1 → Fin S210000x1.rank)
  transposes_S48x384_S384x48_1_0 : S48x384.Transposes [1, 0] S384x48
  inb_S2000x384_S2000x384_0_0 : ∀ a, (![0, 0] : Fin 2 → Nat) a + S2000x384.size a ≤ S2000x384.size a
  h_S2000x384 : 0 < S2000x384.numel
  bitsLt_bf16_f32 : FTy.bits .bf16 < FTy.bits .f32
  inb_S384x48_S384x48_0_0 : ∀ a, (![0, 0] : Fin 2 → Nat) a + S384x48.size a ≤ S384x48.size a
  h_S384x48 : 0 < S384x48.numel
  shapeCasts_S384x48_S384x48 : S384x48.ShapeCasts S384x48
  inb_S2000x48_S2000x48_0_0 : ∀ a, (![0, 0] : Fin 2 → Nat) a + S2000x48.size a ≤ S2000x48.size a
  h_S2000x48 : 0 < S2000x48.numel
  bcast_S210000x1_S210000x48_0_1 : S210000x1.BroadcastsInDim S210000x48 (![0, 1] : Fin 2 → Fin S210000x48.rank)
  bcast_S_S10000x48 : S_.BroadcastsInDim S10000x48 (![] : Fin 0 → Fin S10000x48.rank)
  shapeCasts_S48_S1x48 : S48.ShapeCasts S1x48
  shapeCasts_S2000x48_S2000x48 : S2000x48.ShapeCasts S2000x48
  inb_S1x48_S1x48_0_0 : ∀ a, (![0, 0] : Fin 2 → Nat) a + S1x48.size a ≤ S1x48.size a
  h_S1x48 : 0 < S1x48.numel
  shapeCasts_S1x48_S1x48 : S1x48.ShapeCasts S1x48
  broadcasts_S1x48_S2000x48 : S1x48.Broadcasts S2000x48
  transposes_S384x48_S48x384_1_0 : S384x48.Transposes [1, 0] S48x384
  inb_S48x384_S48x384_0_0 : ∀ a, (![0, 0] : Fin 2 → Nat) a + S48x384.size a ≤ S48x384.size a
  h_S48x384 : 0 < S48x384.numel
  shapeCasts_S48x384_S48x384 : S48x384.ShapeCasts S48x384
  bcast_S210000x1_S210000x384_0_1 : S210000x1.BroadcastsInDim S210000x384 (![0, 1] : Fin 2 → Fin S210000x384.rank)
  bcast_S_S10000x384 : S_.BroadcastsInDim S10000x384 (![] : Fin 0 → Fin S10000x384.rank)
  shapeCasts_S384_S1x384 : S384.ShapeCasts S1x384
  shapeCasts_S2000x384_S2000x384 : S2000x384.ShapeCasts S2000x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  scatter_S10000_S210000x1_S210000_n_0_0_1_wf : ScatterDims.WF S10000 S210000x1 S210000 [] [0] [0] 1
  gather_S10000_S210000x1_S210000_n_0_n_n_0_1_1_wf : GatherDims.WF S10000 S210000x1 S210000 [] [0] [] [0] [] 1 ![1]
  dot_S2000x384_S384x48_S2000x48_1_0_0_1_n_n_wf : DotDims.WF S2000x384 S384x48 S2000x48 [1] [0] [0] [1] [] []
  gather_S10000x48_S210000x1_S210000x48_1_0_n_n_0_1_148_wf : GatherDims.WF S10000x48 S210000x1 S210000x48 [1] [0] [] [0] [] 1 ![1, 48]
  scatter_S10000x48_S210000x1_S210000x48_1_0_0_1_wf : ScatterDims.WF S10000x48 S210000x1 S210000x48 [1] [0] [0] 1
  dot_S2000x48_S48x384_S2000x384_1_0_0_1_n_n_wf : DotDims.WF S2000x48 S48x384 S2000x384 [1] [0] [0] [1] [] []
  gather_S10000x384_S210000x1_S210000x384_1_0_n_n_0_1_1384_wf : GatherDims.WF S10000x384 S210000x1 S210000x384 [1] [0] [] [0] [] 1 ![1, 384]
  scatter_S10000x384_S210000x1_S210000x384_1_0_0_1_wf : ScatterDims.WF S10000x384 S210000x1 S210000x384 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x384.size a ≤ S10000x384.size a
  hwx0_0 : ∀ i : grid0.Coords, EltTy.bits .f32 = 32 ∨ (Rect.block (s := S10000x384) S2000x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x48.size a ≤ S384x48.size a
  hwx0_1 : ∀ i : grid0.Coords, EltTy.bits .f32 = 32 ∨ (Rect.block (s := S384x48) S384x48.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x48.size a ≤ S10000x48.size a
  hwx0_2 : ∀ i : grid0.Coords, EltTy.bits .f32 = 32 ∨ (Rect.block (s := S10000x48) S2000x48.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x48.size a ≤ S10000x48.size a
  hwx1_0 : ∀ i : grid1.Coords, EltTy.bits .f32 = 32 ∨ (Rect.block (s := S10000x48) S2000x48.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x48.size a ≤ S1x48.size a
  hwx1_1 : ∀ i : grid1.Coords, EltTy.bits .f32 = 32 ∨ (Rect.block (s := S1x48) S1x48.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x48.size a ≤ S10000x48.size a
  hwx1_2 : ∀ i : grid1.Coords, EltTy.bits .f32 = 32 ∨ (Rect.block (s := S10000x48) S2000x48.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x48.size a ≤ S10000x48.size a
  hwx2_0 : ∀ i : grid2.Coords, EltTy.bits .f32 = 32 ∨ (Rect.block (s := S10000x48) S2000x48.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S48x384.size a ≤ S48x384.size a
  hwx2_1 : ∀ i : grid2.Coords, EltTy.bits .f32 = 32 ∨ (Rect.block (s := S48x384) S48x384.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x384.size a ≤ S10000x384.size a
  hwx2_2 : ∀ i : grid2.Coords, EltTy.bits .f32 = 32 ∨ (Rect.block (s := S10000x384) S2000x384.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x384.size a ≤ S10000x384.size a
  hwx3_0 : ∀ i : grid3.Coords, EltTy.bits .f32 = 32 ∨ (Rect.block (s := S10000x384) S2000x384.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x384.size a ≤ S1x384.size a
  hwx3_1 : ∀ i : grid3.Coords, EltTy.bits .f32 = 32 ∨ (Rect.block (s := S1x384) S1x384.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x384.size a ≤ S10000x384.size a
  hwx3_2 : ∀ i : grid3.Coords, EltTy.bits .f32 = 32 ∨ (Rect.block (s := S10000x384) S2000x384.size (cc3_transform_2 i) (hinb3_2 i)).WholeWords (EltTy.packing .f32)

variable [Facts₀]

def scatter_S10000_S210000x1_S210000_n_0_0_1 : ScatterDims S10000 S210000x1 S210000 where
  updateWindowDims := []
  insertedWindowDims := [0]
  scatterDimsToOperandDims := [0]
  indexVectorDim := 1
  wf := scatter_S10000_S210000x1_S210000_n_0_0_1_wf
def gather_S10000_S210000x1_S210000_n_0_n_n_0_1_1 : GatherDims S10000 S210000x1 S210000 where
  offsetDims := []
  collapsedSliceDims := [0]
  operandBatchingDims := []
  startIndicesBatchingDims := []
  startIndexMap := [0]
  indexVectorDim := 1
  sliceSizes := ![1]
  wf := gather_S10000_S210000x1_S210000_n_0_n_n_0_1_1_wf
def dot_S2000x384_S384x48_S2000x48_1_0_0_1_n_n : DotDims S2000x384 S384x48 S2000x48 where
  lhsContracting := [1]
  rhsContracting := [0]
  lhsNonContracting := [0]
  rhsNonContracting := [1]
  lhsBatch := []
  rhsBatch := []
  wf := dot_S2000x384_S384x48_S2000x48_1_0_0_1_n_n_wf
def gather_S10000x48_S210000x1_S210000x48_1_0_n_n_0_1_148 : GatherDims S10000x48 S210000x1 S210000x48 where
  offsetDims := [1]
  collapsedSliceDims := [0]
  operandBatchingDims := []
  startIndicesBatchingDims := []
  startIndexMap := [0]
  indexVectorDim := 1
  sliceSizes := ![1, 48]
  wf := gather_S10000x48_S210000x1_S210000x48_1_0_n_n_0_1_148_wf
def scatter_S10000x48_S210000x1_S210000x48_1_0_0_1 : ScatterDims S10000x48 S210000x1 S210000x48 where
  updateWindowDims := [1]
  insertedWindowDims := [0]
  scatterDimsToOperandDims := [0]
  indexVectorDim := 1
  wf := scatter_S10000x48_S210000x1_S210000x48_1_0_0_1_wf
def dot_S2000x48_S48x384_S2000x384_1_0_0_1_n_n : DotDims S2000x48 S48x384 S2000x384 where
  lhsContracting := [1]
  rhsContracting := [0]
  lhsNonContracting := [0]
  rhsNonContracting := [1]
  lhsBatch := []
  rhsBatch := []
  wf := dot_S2000x48_S48x384_S2000x384_1_0_0_1_n_n_wf
def gather_S10000x384_S210000x1_S210000x384_1_0_n_n_0_1_1384 : GatherDims S10000x384 S210000x1 S210000x384 where
  offsetDims := [1]
  collapsedSliceDims := [0]
  operandBatchingDims := []
  startIndicesBatchingDims := []
  startIndexMap := [0]
  indexVectorDim := 1
  sliceSizes := ![1, 384]
  wf := gather_S10000x384_S210000x1_S210000x384_1_0_n_n_0_1_1384_wf
def scatter_S10000x384_S210000x1_S210000x384_1_0_0_1 : ScatterDims S10000x384 S210000x1 S210000x384 where
  updateWindowDims := [1]
  insertedWindowDims := [0]
  scatterDimsToOperandDims := [0]
  indexVectorDim := 1
  wf := scatter_S10000x384_S210000x1_S210000x384_1_0_0_1_wf

abbrev win0_0 : Pipeline.Window sig grid0 :=
  Pipeline.Window.ofSpec (Memref.whole main_arg0) S2000x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S384x48.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x48.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S2000x48.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x48.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S2000x48.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S2000x48.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S48x384.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x384.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S2000x384.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x384.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S2000x384.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S10000x384 : Shape := ⟨2, ![10000, 384]⟩
abbrev S2x200000 : Shape := ⟨2, ![2, 200000]⟩
abbrev S48x384 : Shape := ⟨2, ![48, 384]⟩
abbrev S48 : Shape := ⟨1, ![48]⟩
abbrev S384x48 : Shape := ⟨2, ![384, 48]⟩
abbrev S384 : Shape := ⟨1, ![384]⟩
abbrev S10000 : Shape := ⟨1, ![10000]⟩
abbrev S1x200000 : Shape := ⟨2, ![1, 200000]⟩
abbrev S200000 : Shape := ⟨1, ![200000]⟩
abbrev S210000 : Shape := ⟨1, ![210000]⟩
abbrev S10000x48 : Shape := ⟨2, ![10000, 48]⟩
abbrev S_ : Shape := ⟨0, ![]⟩
abbrev S210000x1 : Shape := ⟨2, ![210000, 1]⟩
abbrev S210000x48 : Shape := ⟨2, ![210000, 48]⟩
abbrev S1x48 : Shape := ⟨2, ![1, 48]⟩
abbrev S210000x384 : Shape := ⟨2, ![210000, 384]⟩
abbrev S1x384 : Shape := ⟨2, ![1, 384]⟩

abbrev nBuf : Space → Nat
  | .hbm => 124
  | .vmem => 0
  | .smem => 0
  | _ => 0

abbrev bufTy : (tb : Table) → Fin (tcTables nBuf tb) → BufTy
  | .hbm, ⟨0, _⟩ => ⟨S10000x384, .f32⟩
  | .hbm, ⟨1, _⟩ => ⟨S2x200000, .i32⟩
  | .hbm, ⟨2, _⟩ => ⟨S48x384, .f32⟩
  | .hbm, ⟨3, _⟩ => ⟨S48, .f32⟩
  | .hbm, ⟨4, _⟩ => ⟨S384x48, .f32⟩
  | .hbm, ⟨5, _⟩ => ⟨S384, .f32⟩
  | .hbm, ⟨6, _⟩ => ⟨S10000, .i32⟩
  | .hbm, ⟨7, _⟩ => ⟨S1x200000, .i32⟩
  | .hbm, ⟨8, _⟩ => ⟨S200000, .i32⟩
  | .hbm, ⟨9, _⟩ => ⟨S210000, .i32⟩
  | .hbm, ⟨10, _⟩ => ⟨S1x200000, .i32⟩
  | .hbm, ⟨11, _⟩ => ⟨S200000, .i32⟩
  | .hbm, ⟨12, _⟩ => ⟨S210000, .i32⟩
  | .hbm, ⟨13, _⟩ => ⟨S384x48, .f32⟩
  | .hbm, ⟨14, _⟩ => ⟨S10000x48, .f32⟩
  | .hbm, ⟨15, _⟩ => ⟨S_, .f32⟩
  | .hbm, ⟨16, _⟩ => ⟨S210000, .f32⟩
  | .hbm, ⟨17, _⟩ => ⟨S_, .f32⟩
  | .hbm, ⟨18, _⟩ => ⟨S10000, .f32⟩
  | .hbm, ⟨19, _⟩ => ⟨S210000x1, .i32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .i1⟩
  | .hbm, ⟨24, _⟩ => ⟨S10000, .f32⟩
  | .hbm, ⟨25, _⟩ => ⟨S_, .f32⟩
  | .hbm, ⟨26, _⟩ => ⟨S_, .f32⟩
  | .hbm, ⟨27, _⟩ => ⟨S10000, .f32⟩
  | .hbm, ⟨28, _⟩ => ⟨S10000, .f32⟩
  | .hbm, ⟨29, _⟩ => ⟨S_, .i32⟩
  | .hbm, ⟨30, _⟩ => ⟨S210000, .i32⟩
  | .hbm, ⟨31, _⟩ => ⟨S210000, .i1⟩
  | .hbm, ⟨32, _⟩ => ⟨S_, .i32⟩
  | .hbm, ⟨33, _⟩ => ⟨S210000, .i32⟩
  | .hbm, ⟨34, _⟩ => ⟨S210000, .i32⟩
  | .hbm, ⟨35, _⟩ => ⟨S210000, .i32⟩
  | .hbm, ⟨36, _⟩ => ⟨S210000x1, .i32⟩
  | .hbm, ⟨37, _⟩ => ⟨S210000, .f32⟩
  | .hbm, ⟨38, _⟩ => ⟨S_, .i32⟩
  | .hbm, ⟨39, _⟩ => ⟨S210000, .i32⟩
  | .hbm, ⟨40, _⟩ => ⟨S210000, .i1⟩
  | .hbm, ⟨41, _⟩ => ⟨S_, .i32⟩
  | .hbm, ⟨42, _⟩ => ⟨S210000, .i32⟩
  | .hbm, ⟨43, _⟩ => ⟨S210000, .i32⟩
  | .hbm, ⟨44, _⟩ => ⟨S210000, .i32⟩
  | .hbm, ⟨45, _⟩ => ⟨S210000x1, .i32⟩
  | .hbm, ⟨46, _⟩ => ⟨S210000, .f32⟩
  | .hbm, ⟨47, _⟩ => ⟨S210000, .f32⟩
  | .hbm, ⟨48, _⟩ => ⟨S_, .i32⟩
  | .hbm, ⟨49, _⟩ => ⟨S210000, .i32⟩
  | .hbm, ⟨50, _⟩ => ⟨S210000, .i1⟩
  | .hbm, ⟨51, _⟩ => ⟨S_, .i32⟩
  | .hbm, ⟨52, _⟩ => ⟨S210000, .i32⟩
  | .hbm, ⟨53, _⟩ => ⟨S210000, .i32⟩
  | .hbm, ⟨54, _⟩ => ⟨S210000, .i32⟩
  | .hbm, ⟨55, _⟩ => ⟨S210000x1, .i32⟩
  | .hbm, ⟨56, _⟩ => ⟨S210000x48, .f32⟩
  | .hbm, ⟨57, _⟩ => ⟨S210000x1, .f32⟩
  | .hbm, ⟨58, _⟩ => ⟨S210000x48, .f32⟩
  | .hbm, ⟨59, _⟩ => ⟨S210000x48, .f32⟩
  | .hbm, ⟨60, _⟩ => ⟨S_, .f32⟩
  | .hbm, ⟨61, _⟩ => ⟨S10000x48, .f32⟩
  | .hbm, ⟨62, _⟩ => ⟨S210000x1, .i32⟩
  | .hbm, ⟨63, _⟩ => ⟨S10000x48, .f32⟩
  | .hbm, ⟨64, _⟩ => ⟨S1x48, .f32⟩
  | .hbm, ⟨65, _⟩ => ⟨S10000x48, .f32⟩
  | .hbm, ⟨66, _⟩ => ⟨S10000x48, .f32⟩
  | .hbm, ⟨67, _⟩ => ⟨S_, .f32⟩
  | .hbm, ⟨68, _⟩ => ⟨S10000x48, .f32⟩
  | .hbm, ⟨69, _⟩ => ⟨S10000x48, .f32⟩
  | .hbm, ⟨70, _⟩ => ⟨S48x384, .f32⟩
  | .hbm, ⟨71, _⟩ => ⟨S10000x384, .f32⟩
  | .hbm, ⟨72, _⟩ => ⟨S_, .f32⟩
  | .hbm, ⟨73, _⟩ => ⟨S210000, .f32⟩
  | .hbm, ⟨74, _⟩ => ⟨S_, .f32⟩
  | .hbm, ⟨75, _⟩ => ⟨S10000, .f32⟩
  | .hbm, ⟨76, _⟩ => ⟨S210000x1, .i32⟩
  | .hbm, ⟨77, _⟩ => ⟨S10000, .f32⟩
  | .hbm, ⟨78, _⟩ => ⟨S_, .f32⟩
  | .hbm, ⟨79, _⟩ => ⟨S10000, .f32⟩
  | .hbm, ⟨80, _⟩ => ⟨S10000, .i1⟩
  | .hbm, ⟨81, _⟩ => ⟨S10000, .f32⟩
  | .hbm, ⟨82, _⟩ => ⟨S_, .f32⟩
  | .hbm, ⟨83, _⟩ => ⟨S_, .f32⟩
  | .hbm, ⟨84, _⟩ => ⟨S10000, .f32⟩
  | .hbm, ⟨85, _⟩ => ⟨S10000, .f32⟩
  | .hbm, ⟨86, _⟩ => ⟨S_, .i32⟩
  | .hbm, ⟨87, _⟩ => ⟨S210000, .i32⟩
  | .hbm, ⟨88, _⟩ => ⟨S210000, .i1⟩
  | .hbm, ⟨89, _⟩ => ⟨S_, .i32⟩
  | .hbm, ⟨90, _⟩ => ⟨S210000, .i32⟩
  | .hbm, ⟨91, _⟩ => ⟨S210000, .i32⟩
  | .hbm, ⟨92, _⟩ => ⟨S210000, .i32⟩
  | .hbm, ⟨93, _⟩ => ⟨S210000x1, .i32⟩
  | .hbm, ⟨94, _⟩ => ⟨S210000, .f32⟩
  | .hbm, ⟨95, _⟩ => ⟨S_, .i32⟩
  | .hbm, ⟨96, _⟩ => ⟨S210000, .i32⟩
  | .hbm, ⟨97, _⟩ => ⟨S210000, .i1⟩
  | .hbm, ⟨98, _⟩ => ⟨S_, .i32⟩
  | .hbm, ⟨99, _⟩ => ⟨S210000, .i32⟩
  | .hbm, ⟨100, _⟩ => ⟨S210000, .i32⟩
  | .hbm, ⟨101, _⟩ => ⟨S210000, .i32⟩
  | .hbm, ⟨102, _⟩ => ⟨S210000x1, .i32⟩
  | .hbm, ⟨103, _⟩ => ⟨S210000, .f32⟩
  | .hbm, ⟨104, _⟩ => ⟨S210000, .f32⟩
  | .hbm, ⟨105, _⟩ => ⟨S_, .i32⟩
  | .hbm, ⟨106, _⟩ => ⟨S210000, .i32⟩
  | .hbm, ⟨107, _⟩ => ⟨S210000, .i1⟩
  | .hbm, ⟨108, _⟩ => ⟨S_, .i32⟩
  | .hbm, ⟨109, _⟩ => ⟨S210000, .i32⟩
  | .hbm, ⟨110, _⟩ => ⟨S210000, .i32⟩
  | .hbm, ⟨111, _⟩ => ⟨S210000, .i32⟩
  | .hbm, ⟨112, _⟩ => ⟨S210000x1, .i32⟩
  | .hbm, ⟨113, _⟩ => ⟨S210000x384, .f32⟩
  | .hbm, ⟨114, _⟩ => ⟨S210000x1, .f32⟩
  | .hbm, ⟨115, _⟩ => ⟨S210000x384, .f32⟩
  | .hbm, ⟨116, _⟩ => ⟨S210000x384, .f32⟩
  | .hbm, ⟨117, _⟩ => ⟨S_, .f32⟩
  | .hbm, ⟨118, _⟩ => ⟨S10000x384, .f32⟩
  | .hbm, ⟨119, _⟩ => ⟨S210000x1, .i32⟩
  | .hbm, ⟨120, _⟩ => ⟨S10000x384, .f32⟩
  | .hbm, ⟨121, _⟩ => ⟨S1x384, .f32⟩
  | .hbm, ⟨122, _⟩ => ⟨S10000x384, .f32⟩
  | .hbm, ⟨123, _⟩ => ⟨S10000x384, .f32⟩
  | _, _ => ⟨S10000x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v58 : Ref sig .tc := ⟨.hbm, 85, rfl⟩
abbrev main_c_13 : Ref sig .tc := ⟨.hbm, 86, rfl⟩
abbrev main_v59 : Ref sig .tc := ⟨.hbm, 87, rfl⟩
abbrev main_v60 : Ref sig .tc := ⟨.hbm, 88, rfl⟩
abbrev main_c_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c_17 : Ref sig .tc := ⟨.hbm, 105, rfl⟩
abbrev main_v74 : Ref sig .tc := ⟨.hbm, 106, rfl⟩
abbrev main_v75 : Ref sig .tc := ⟨.hbm, 107, rfl⟩
abbrev main_c_18 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_19 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩

abbrev nD : Nat := 1
abbrev τ : Topo := Topo.v7x

variable {F : FTy → Type} [FloatOps F]

class Facts₀ : Prop where
  slices_S2x200000_S1x200000_0_0 : S2x200000.Slices ![0, 0] S1x200000
  shapeCasts_S1x200000_S200000 : S1x200000.ShapeCasts S200000
  concatenates_S200000_S10000_S210000_d0 : Shape.Concatenates [S200000, S10000] S210000 0
  slices_S2x200000_S1x200000_1_0 : S2x200000.Slices ![1, 0] S1x200000
  transposes_S48x384_S384x48_1_0 : S48x384.Transposes [1, 0] S384x48
  bcast_S_S210000 : S_.BroadcastsInDim S210000 (![] : Fin 0 → Fin S210000.rank)
  bcast_S_S10000 : S_.BroadcastsInDim S10000 (![] : Fin 0 → Fin S10000.rank)
  bcast_S210000_S210000x1_0 : S210000.BroadcastsInDim S210000x1 (![0] : Fin 1 → Fin S210000x1.rank)
  bcast_S210000x1_S210000x48_0_1 : S210000x1.BroadcastsInDim S210000x48 (![0, 1] : Fin 2 → Fin S210000x48.rank)
  bcast_S_S10000x48 : S_.BroadcastsInDim S10000x48 (![] : Fin 0 → Fin S10000x48.rank)
  bcast_S48_S1x48_1 : S48.BroadcastsInDim S1x48 (![1] : Fin 1 → Fin S1x48.rank)
  bcast_S1x48_S10000x48_0_1 : S1x48.BroadcastsInDim S10000x48 (![0, 1] : Fin 2 → Fin S10000x48.rank)
  transposes_S384x48_S48x384_1_0 : S384x48.Transposes [1, 0] S48x384
  bcast_S210000x1_S210000x384_0_1 : S210000x1.BroadcastsInDim S210000x384 (![0, 1] : Fin 2 → Fin S210000x384.rank)
  bcast_S_S10000x384 : S_.BroadcastsInDim S10000x384 (![] : Fin 0 → Fin S10000x384.rank)
  bcast_S384_S1x384_1 : S384.BroadcastsInDim S1x384 (![1] : Fin 1 → Fin S1x384.rank)
  bcast_S1x384_S10000x384_0_1 : S1x384.BroadcastsInDim S10000x384 (![0, 1] : Fin 2 → Fin S10000x384.rank)
  dot_S10000x384_S384x48_S10000x48_1_0_0_1_n_n_wf : DotDims.WF S10000x384 S384x48 S10000x48 [1] [0] [0] [1] [] []
  scatter_S10000_S210000x1_S210000_n_0_0_1_wf : ScatterDims.WF S10000 S210000x1 S210000 [] [0] [0] 1
  gather_S10000_S210000x1_S210000_n_0_n_n_0_1_1_wf : GatherDims.WF S10000 S210000x1 S210000 [] [0] [] [0] [] 1 ![1]
  gather_S10000x48_S210000x1_S210000x48_1_0_n_n_0_1_148_wf : GatherDims.WF S10000x48 S210000x1 S210000x48 [1] [0] [] [0] [] 1 ![1, 48]
  scatter_S10000x48_S210000x1_S210000x48_1_0_0_1_wf : ScatterDims.WF S10000x48 S210000x1 S210000x48 [1] [0] [0] 1
  dot_S10000x48_S48x384_S10000x384_1_0_0_1_n_n_wf : DotDims.WF S10000x48 S48x384 S10000x384 [1] [0] [0] [1] [] []
  gather_S10000x384_S210000x1_S210000x384_1_0_n_n_0_1_1384_wf : GatherDims.WF S10000x384 S210000x1 S210000x384 [1] [0] [] [0] [] 1 ![1, 384]
  scatter_S10000x384_S210000x1_S210000x384_1_0_0_1_wf : ScatterDims.WF S10000x384 S210000x1 S210000x384 [1] [0] [0] 1

variable [Facts₀]

def dot_S10000x384_S384x48_S10000x48_1_0_0_1_n_n : DotDims S10000x384 S384x48 S10000x48 where
  lhsContracting := [1]
  rhsContracting := [0]
  lhsNonContracting := [0]
  rhsNonContracting := [1]
  lhsBatch := []
  rhsBatch := []
  wf := dot_S10000x384_S384x48_S10000x48_1_0_0_1_n_n_wf
def scatter_S10000_S210000x1_S210000_n_0_0_1 : ScatterDims S10000 S210000x1 S210000 where
  updateWindowDims := []
  insertedWindowDims := [0]
  scatterDimsToOperandDims := [0]
  indexVectorDim := 1
  wf := scatter_S10000_S210000x1_S210000_n_0_0_1_wf
def gather_S10000_S210000x1_S210000_n_0_n_n_0_1_1 : GatherDims S10000 S210000x1 S210000 where
  offsetDims := []
  collapsedSliceDims := [0]
  operandBatchingDims := []
  startIndicesBatchingDims := []
  startIndexMap := [0]
  indexVectorDim := 1
  sliceSizes := ![1]
  wf := gather_S10000_S210000x1_S210000_n_0_n_n_0_1_1_wf
def gather_S10000x48_S210000x1_S210000x48_1_0_n_n_0_1_148 : GatherDims S10000x48 S210000x1 S210000x48 where
  offsetDims := [1]
  collapsedSliceDims := [0]
  operandBatchingDims := []
  startIndicesBatchingDims := []
  startIndexMap := [0]
  indexVectorDim := 1
  sliceSizes := ![1, 48]
  wf := gather_S10000x48_S210000x1_S210000x48_1_0_n_n_0_1_148_wf
def scatter_S10000x48_S210000x1_S210000x48_1_0_0_1 : ScatterDims S10000x48 S210000x1 S210000x48 where
  updateWindowDims := [1]
  insertedWindowDims := [0]
  scatterDimsToOperandDims := [0]
  indexVectorDim := 1
  wf := scatter_S10000x48_S210000x1_S210000x48_1_0_0_1_wf
def dot_S10000x48_S48x384_S10000x384_1_0_0_1_n_n : DotDims S10000x48 S48x384 S10000x384 where
  lhsContracting := [1]
  rhsContracting := [0]
  lhsNonContracting := [0]
  rhsNonContracting := [1]
  lhsBatch := []
  rhsBatch := []
  wf := dot_S10000x48_S48x384_S10000x384_1_0_0_1_n_n_wf
def gather_S10000x384_S210000x1_S210000x384_1_0_n_n_0_1_1384 : GatherDims S10000x384 S210000x1 S210000x384 where
  offsetDims := [1]
  collapsedSliceDims := [0]
  operandBatchingDims := []
  startIndicesBatchingDims := []
  startIndexMap := [0]
  indexVectorDim := 1
  sliceSizes := ![1, 384]
  wf := gather_S10000x384_S210000x1_S210000x384_1_0_n_n_0_1_1384_wf
def scatter_S10000x384_S210000x1_S210000x384_1_0_0_1 : ScatterDims S10000x384 S210000x1 S210000x384 where
  updateWindowDims := [1]
  insertedWindowDims := [0]
  scatterDimsToOperandDims := [0]
  indexVectorDim := 1
  wf := scatter_S10000x384_S210000x1_S210000x384_1_0_0_1_wf

class Facts : Prop extends Facts₀ where

variable [Facts]
-- ==== Proof.Layers.lean ====
/-
  The host-side layers of the graph convolution, as the kernel's program spells them: the edge list with a self-loop
  per node appended (sources and destinations), a negative index wrapped by the node count, the in-degree of every
  node as a scatter-add of ones, its inverse square root where positive and zero elsewhere, the symmetric weight of an
  edge as the product of the two ends' inverse roots, and the aggregation of a feature array: gather the source rows,
  scale each by its edge weight, scatter-add into the destination rows of a zero array.
-/
import proofs.«125568_j23021024706912_1_alg».proof.Proof.Gen.KernelIdeal

noncomputable section

namespace Cert.KernelIdeal.Layers

open Idealize.ShloMosaic Idealize.SL.Sem
open Cert.KernelIdeal Cert.KernelIdeal.Gen

variable {F : FTy → Type} [FloatOps F]

/-- The sources: row 0 of the edge list, then the node numbers `0 … 9999` (the self-loops). -/
def srcs (ei : (⟨S2x200000, .i32⟩ : BufTy).Contents (Elt F)) : (⟨S210000, .i32⟩ : BufTy).Contents (Elt F) :=
  concatenate S210000 0 [⟨S200000, shapeCast _ (extractStridedSlice S1x200000 ![0, 0] ei slices_S2x200000_S1x200000_0_0) shapeCasts_S1x200000_S200000⟩,
    ⟨S10000, iotaInDim S10000 32 0⟩] concatenates_S200000_S10000_S210000_d0

/-- The destinations: row 1 of the edge list, then the self-loops. -/
def dsts (ei : (⟨S2x200000, .i32⟩ : BufTy).Contents (Elt F)) : (⟨S210000, .i32⟩ : BufTy).Contents (Elt F) :=
  concatenate S210000 0 [⟨S200000, shapeCast _ (extractStridedSlice S1x200000 ![1, 0] ei slices_S2x200000_S1x200000_1_0) shapeCasts_S1x200000_S200000⟩,
    ⟨S10000, iotaInDim S10000 32 0⟩] concatenates_S200000_S10000_S210000_d0

/-- A negative index counted from the end: the node count added where the index is below zero. -/
def wrap (v : (⟨S210000, .i32⟩ : BufTy).Contents (Elt F)) : (⟨S210000, .i32⟩ : BufTy).Contents (Elt F) :=
  select (cmpi .slt v (broadcastInDim S210000 ![] bcast_S_S210000 (constantI S_ 32 0#32)))
    (addi v (broadcastInDim S210000 ![] bcast_S_S210000 (constantI S_ 32 10000#32))) v

/-- The in-degree of every node (self-loop included): ones scatter-added at the destinations into zeros. -/
def degree (d : (⟨S210000, .i32⟩ : BufTy).Contents (Elt F)) : (⟨S10000, .f32⟩ : BufTy).Contents (Elt F) :=
  Host.scatterAdd scatter_S10000_S210000x1_S210000_n_0_0_1
    (broadcastInDim S10000 ![] bcast_S_S10000 (constant S_ .f32 0x00000000#32))
    (broadcastInDim S210000x1 ![0] bcast_S210000_S210000x1_0 d)
    (broadcastInDim S210000 ![] bcast_S_S210000 (constant S_ .f32 0x3F800000#32))

/-- The inverse square root of the degree where it is positive, zero elsewhere. -/
def invRoot (d : (⟨S210000, .i32⟩ : BufTy).Contents (Elt F)) : (⟨S10000, .f32⟩ : BufTy).Contents (Elt F) :=
  select (cmpf (F := F) .ogt (degree d) (broadcastInDim S10000 ![] bcast_S_S10000 (constant S_ .f32 0x00000000#32)))
    (Host.rsqrt (degree d))
    (broadcastInDim S10000 ![] bcast_S_S10000 (id (constant S_ .f32 0x00000000#32)))

/-- The weight of every edge: the product of its two ends' inverse roots. -/
def weights (s d : (⟨S210000, .i32⟩ : BufTy).Contents (Elt F)) : (⟨S210000, .f32⟩ : BufTy).Contents (Elt F) :=
  mulf (Host.gather gather_S10000_S210000x1_S210000_n_0_n_n_0_1_1 (invRoot d)
      (broadcastInDim S210000x1 ![0] bcast_S210000_S210000x1_0 (wrap s)))
    (Host.gather gather_S10000_S210000x1_S210000_n_0_n_n_0_1_1 (invRoot d)
      (broadcastInDim S210000x1 ![0] bcast_S210000_S210000x1_0 (wrap d)))

/-- The aggregation of a 48-column array over the edges. -/
def spread48 (s d : (⟨S210000, .i32⟩ : BufTy).Contents (Elt F)) (n : (⟨S210000, .f32⟩ : BufTy).Contents (Elt F))
    (h : (⟨S10000x48, .f32⟩ : BufTy).Contents (Elt F)) : (⟨S10000x48, .f32⟩ : BufTy).Contents (Elt F) :=
  Host.scatterAdd scatter_S10000x48_S210000x1_S210000x48_1_0_0_1
    (broadcastInDim S10000x48 ![] bcast_S_S10000x48 (constant S_ .f32 0x00000000#32))
    (broadcastInDim S210000x1 ![0] bcast_S210000_S210000x1_0 d)
    (mulf (Host.gather gather_S10000x48_S210000x1_S210000x48_1_0_n_n_0_1_148 h
        (broadcastInDim S210000x1 ![0] bcast_S210000_S210000x1_0 (wrap s)))
      (broadcastInDim S210000x48 ![0, 1] bcast_S210000x1_S210000x48_0_1
        (broadcastInDim S210000x1 ![0] bcast_S210000_S210000x1_0 n)))

/-- The aggregation of a 384-column array over the edges. -/
def spread384 (s d : (⟨S210000, .i32⟩ : BufTy).Contents (Elt F)) (n : (⟨S210000, .f32⟩ : BufTy).Contents (Elt F))
    (h : (⟨S10000x384, .f32⟩ : BufTy).Contents (Elt F)) : (⟨S10000x384, .f32⟩ : BufTy).Contents (Elt F) :=
  Host.scatterAdd scatter_S10000x384_S210000x1_S210000x384_1_0_0_1
    (broadcastInDim S10000x384 ![] bcast_S_S10000x384 (constant S_ .f32 0x00000000#32))
    (broadcastInDim S210000x1 ![0] bcast_S210000_S210000x1_0 d)
    (mulf (Host.gather gather_S10000x384_S210000x1_S210000x384_1_0_n_n_0_1_1384 h
        (broadcastInDim S210000x1 ![0] bcast_S210000_S210000x1_0 (wrap s)))
      (broadcastInDim S210000x384 ![0, 1] bcast_S210000x1_S210000x384_0_1
        (broadcastInDim S210000x1 ![0] bcast_S210000_S210000x1_0 n)))

end Cert.KernelIdeal.Layers

end
-- ==== Proof.HostTactics.lean ====
/-
  Two small tactics for reading a buffer's contents after a stretch of host operations: one for a buffer the stretch
  does not write (it keeps its contents), one that rewrites every operation's result at its result buffer, also inside
  the operand list of a concatenation.
-/
import Idealize.ShloMosaic.Lib.StableHlo.Run

open Idealize.ShloMosaic Idealize.ShloMosaic.StableHlo

/-- Closes `after ops V (devRef b) = V (devRef b)` for a literal list `ops` none of whose operations writes `b`;
    `ops` is named by the definitions in the simp set the caller passes first (`dsimp only`) or is already literal. -/
macro "unwritten" : tactic =>
  `(tactic| (refine StableHlo.after_of_forall_not_mem _ _ (List.forall_iff_forall_mem.mp ?_)
             simp only [List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-- The rewriting loop of `after_results` without its opening `simp only`. -/
macro "results_in_lists" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-- Every operation's result at its own buffer, in one simp pass, then inside the concatenations' operand lists. -/
macro "host_results" : tactic =>
  `(tactic| (after_results_simp; results_in_lists))
-- ==== Proof.EntryValues.lean ====
/-
  What the buffers hold when the first region is entered.  Three stretches of host operations run before it: they
  build the source and destination lists (the edge list's two rows, each followed by the self-loops), the degrees, the
  inverse roots and the edge weights, and transpose the first weight matrix.  Read back through the stretches, those
  four buffers are the layer functions of the edge list and the transpose of the weight argument; the arguments
  themselves are untouched.
-/
import proofs.«125568_j23021024706912_1_alg».proof.Proof.Gen.KernelIdeal.Frame
import proofs.«125568_j23021024706912_1_alg».proof.Proof.Layers
import proofs.«125568_j23021024706912_1_alg».proof.Proof.HostTactics

set_option maxRecDepth 16384

noncomputable section

namespace Cert.KernelIdeal.Entry

open Idealize.ShloMosaic Idealize.ShloMosaic.TcCoe Idealize.SL.Sem Idealize.ShloMosaic.StableHlo
open Cert.KernelIdeal Cert.KernelIdeal.Gen Cert.KernelIdeal.Layers

variable {F : FTy → Type} [FloatOps F]
variable (m : (ℓ : Loc nD τ sig) → Buf (Elt F) ℓ) (ρ : Dev nD → PrngReg) (c : Dev nD)

set_option maxHeartbeats 4000000 in
/-- The sources. -/
theorem srcs_eq : W3 m ρ c (Proc.devRef .tc main_v3) = srcs (m ((c : Thread nD τ).loc main_arg1)) := by
  dsimp only [W3, W2, W1, hostOps0, hostOps0_1, hostOps0_2]
  host_results
  all_goals rfl

set_option maxHeartbeats 4000000 in
/-- The destinations. -/
theorem dsts_eq : W3 m ρ c (Proc.devRef .tc main_v6) = dsts (m ((c : Thread nD τ).loc main_arg1)) := by
  dsimp only [W3, W2, W1, hostOps0, hostOps0_1, hostOps0_2]
  host_results
  all_goals rfl

set_option maxHeartbeats 4000000 in
/-- The edge weights. -/
theorem weights_eq : W3 m ρ c (Proc.devRef .tc main_v29)
    = weights (srcs (m ((c : Thread nD τ).loc main_arg1))) (dsts (m ((c : Thread nD τ).loc main_arg1))) := by
  dsimp only [W3, W2, W1, hostOps0, hostOps0_1, hostOps0_2]
  host_results
  all_goals rfl

set_option maxHeartbeats 4000000 in
/-- The first weight matrix, transposed. -/
theorem w1T_eq : W3 m ρ c (Proc.devRef .tc main_v30)
    = transpose S384x48 [1, 0] (m ((c : Thread nD τ).loc main_arg2)) transposes_S48x384_S384x48_1_0 := by
  dsimp only [W3, W2, W1, hostOps0, hostOps0_1, hostOps0_2]
  host_results
  all_goals rfl

/-- A buffer none of the three stretches writes holds its launch contents. -/
theorem kept (b : Ref sig .tc)
    (h0 : StableHlo.after hostOps0 (W0 m ρ c) (Proc.devRef .tc b) = W0 m ρ c (Proc.devRef .tc b))
    (h1 : StableHlo.after hostOps0_1 (W1 m ρ c) (Proc.devRef .tc b) = W1 m ρ c (Proc.devRef .tc b))
    (h2 : StableHlo.after hostOps0_2 (W2 m ρ c) (Proc.devRef .tc b) = W2 m ρ c (Proc.devRef .tc b)) :
    W3 m ρ c (Proc.devRef .tc b) = m ((c : Thread nD τ).loc b) :=
  h2.trans (h1.trans (h0.trans rfl))

theorem arg0_eq : W3 m ρ c (Proc.devRef .tc main_arg0) = m ((c : Thread nD τ).loc main_arg0) :=
  kept m ρ c main_arg0 (by dsimp only [hostOps0]; unwritten) (by dsimp only [hostOps0_1]; unwritten) (by dsimp only [hostOps0_2]; unwritten)
theorem arg3_eq : W3 m ρ c (Proc.devRef .tc main_arg3) = m ((c : Thread nD τ).loc main_arg3) :=
  kept m ρ c main_arg3 (by dsimp only [hostOps0]; unwritten) (by dsimp only [hostOps0_1]; unwritten) (by dsimp only [hostOps0_2]; unwritten)
theorem arg4_eq : W3 m ρ c (Proc.devRef .tc main_arg4) = m ((c : Thread nD τ).loc main_arg4) :=
  kept m ρ c main_arg4 (by dsimp only [hostOps0]; unwritten) (by dsimp only [hostOps0_1]; unwritten) (by dsimp only [hostOps0_2]; unwritten)
theorem arg5_eq : W3 m ρ c (Proc.devRef .tc main_arg5) = m ((c : Thread nD τ).loc main_arg5) :=
  kept m ρ c main_arg5 (by dsimp only [hostOps0]; unwritten) (by dsimp only [hostOps0_1]; unwritten) (by dsimp only [hostOps0_2]; unwritten)

end Cert.KernelIdeal.Entry

end
-- ==== Proof.Between.lean ====
/-
  What the host stretches between the regions compute, and what passes through them untouched.  After the first
  region the host gathers the source rows of its output, scales them by the edge weights and scatter-adds them into
  the destination rows (the 48-column aggregation), and casts the first bias to one row; before the third region it
  transposes the second weight matrix; after the third region it aggregates that region's 384-column output the same
  way and casts the second bias to one row.  The source and destination lists, the edge weights and the arguments
  still to be read are written by no later stretch and no region, so they are what they were when the first region
  was entered.
-/
import proofs.«125568_j23021024706912_1_alg».proof.Proof.Gen.KernelIdeal.Frame
import proofs.«125568_j23021024706912_1_alg».proof.Proof.Layers
import proofs.«125568_j23021024706912_1_alg».proof.Proof.HostTactics

set_option maxRecDepth 16384

noncomputable section

namespace Cert.KernelIdeal.Between

open Idealize.ShloMosaic Idealize.ShloMosaic.TcCoe Idealize.SL.Sem Idealize.ShloMosaic.StableHlo
open Cert.KernelIdeal Cert.KernelIdeal.Gen Cert.KernelIdeal.Layers

variable {F : FTy → Type} [FloatOps F]
variable (m : (ℓ : Loc nD τ sig) → Buf (Elt F) ℓ) (ρ : Dev nD → PrngReg) (c : Dev nD)

/-! ## What the stretches write -/

set_option maxHeartbeats 4000000 in
/-- The 48-column aggregation of the first region's output. -/
theorem agg48_eq : W5 m ρ c (Proc.devRef .tc main_v44)
    = spread48 (W4 m ρ c (Proc.devRef .tc main_v3)) (W4 m ρ c (Proc.devRef .tc main_v6))
        (W4 m ρ c (Proc.devRef .tc main_v29)) (W4 m ρ c (Proc.devRef .tc main_v31)) := by
  dsimp only [W5, hostOps1]
  host_results
  all_goals rfl

set_option maxHeartbeats 4000000 in
/-- The first bias as one row. -/
theorem bias1_eq : W5 m ρ c (Proc.devRef .tc main_v45)
    = shapeCast S1x48 (W4 m ρ c (Proc.devRef .tc main_arg3)) shapeCasts_S48_S1x48 := by
  dsimp only [W5, hostOps1]
  host_results
  all_goals rfl

set_option maxHeartbeats 4000000 in
/-- The second weight matrix, transposed. -/
theorem w2T_eq : W7 m ρ c (Proc.devRef .tc main_v47)
    = transpose S48x384 [1, 0] (W6 m ρ c (Proc.devRef .tc main_arg4)) transposes_S384x48_S48x384_1_0 := by
  dsimp only [W7, hostOps2]
  host_results
  all_goals rfl

set_option maxHeartbeats 4000000 in
/-- The 384-column aggregation of the third region's output. -/
theorem agg384_eq : W9 m ρ c (Proc.devRef .tc main_v61)
    = spread384 (W8 m ρ c (Proc.devRef .tc main_v3)) (W8 m ρ c (Proc.devRef .tc main_v6))
        (W8 m ρ c (Proc.devRef .tc main_v29)) (W8 m ρ c (Proc.devRef .tc main_v48)) := by
  dsimp only [W9, hostOps3]
  host_results
  all_goals rfl

set_option maxHeartbeats 4000000 in
/-- The second bias as one row. -/
theorem bias2_eq : W9 m ρ c (Proc.devRef .tc main_v62)
    = shapeCast S1x384 (W8 m ρ c (Proc.devRef .tc main_arg5)) shapeCasts_S384_S1x384 := by
  dsimp only [W9, hostOps3]
  host_results
  all_goals rfl

/-! ## What passes through -/

/-- Through the first region. -/
theorem to4 (b : Ref sig .tc) (r0 : ∀ w, Pipeline.arrRef spec0 w ≠ b) :
    W4 m ρ c (Proc.devRef .tc b) = W3 m ρ c (Proc.devRef .tc b) := W4_of_ne m ρ c b r0

/-- Through the first region, the stretch after it and the second region. -/
theorem to6 (b : Ref sig .tc) (r0 : ∀ w, Pipeline.arrRef spec0 w ≠ b)
    (s1 : StableHlo.after hostOps1 (W4 m ρ c) (Proc.devRef .tc b) = W4 m ρ c (Proc.devRef .tc b))
    (r1 : ∀ w, Pipeline.arrRef spec1 w ≠ b) :
    W6 m ρ c (Proc.devRef .tc b) = W3 m ρ c (Proc.devRef .tc b) :=
  (W6_of_ne m ρ c b r1).trans (s1.trans (to4 m ρ c b r0))

/-- As far as the third region's exit. -/
theorem to8 (b : Ref sig .tc) (r0 : ∀ w, Pipeline.arrRef spec0 w ≠ b)
    (s1 : StableHlo.after hostOps1 (W4 m ρ c) (Proc.devRef .tc b) = W4 m ρ c (Proc.devRef .tc b))
    (r1 : ∀ w, Pipeline.arrRef spec1 w ≠ b)
    (s2 : StableHlo.after hostOps2 (W6 m ρ c) (Proc.devRef .tc b) = W6 m ρ c (Proc.devRef .tc b))
    (r2 : ∀ w, Pipeline.arrRef spec2 w ≠ b) :
    W8 m ρ c (Proc.devRef .tc b) = W3 m ρ c (Proc.devRef .tc b) :=
  (W8_of_ne m ρ c b r2).trans (s2.trans (to6 m ρ c b r0 s1 r1))

theorem srcs4 : W4 m ρ c (Proc.devRef .tc main_v3) = W3 m ρ c (Proc.devRef .tc main_v3) := to4 m ρ c main_v3 (by decide)
theorem dsts4 : W4 m ρ c (Proc.devRef .tc main_v6) = W3 m ρ c (Proc.devRef .tc main_v6) := to4 m ρ c main_v6 (by decide)
theorem weights4 : W4 m ρ c (Proc.devRef .tc main_v29) = W3 m ρ c (Proc.devRef .tc main_v29) := to4 m ρ c main_v29 (by decide)
theorem arg3_4 : W4 m ρ c (Proc.devRef .tc main_arg3) = W3 m ρ c (Proc.devRef .tc main_arg3) := to4 m ρ c main_arg3 (by decide)

theorem arg4_6 : W6 m ρ c (Proc.devRef .tc main_arg4) = W3 m ρ c (Proc.devRef .tc main_arg4) :=
  to6 m ρ c main_arg4 (by decide) (by dsimp only [hostOps1]; unwritten) (by decide)

/-- The second region's output is still there when the third region is entered. -/
theorem act7 : W7 m ρ c (Proc.devRef .tc main_v46) = W6 m ρ c (Proc.devRef .tc main_v46) := by
  dsimp only [W7, hostOps2]; unwritten

theorem srcs8 : W8 m ρ c (Proc.devRef .tc main_v3) = W3 m ρ c (Proc.devRef .tc main_v3) :=
  to8 m ρ c main_v3 (by decide) (by dsimp only [hostOps1]; unwritten) (by decide) (by dsimp only [hostOps2]; unwritten) (by decide)
theorem dsts8 : W8 m ρ c (Proc.devRef .tc main_v6) = W3 m ρ c (Proc.devRef .tc main_v6) :=
  to8 m ρ c main_v6 (by decide) (by dsimp only [hostOps1]; unwritten) (by decide) (by dsimp only [hostOps2]; unwritten) (by decide)
theorem weights8 : W8 m ρ c (Proc.devRef .tc main_v29) = W3 m ρ c (Proc.devRef .tc main_v29) :=
  to8 m ρ c main_v29 (by decide) (by dsimp only [hostOps1]; unwritten) (by decide) (by dsimp only [hostOps2]; unwritten) (by decide)
theorem arg5_8 : W8 m ρ c (Proc.devRef .tc main_arg5) = W3 m ρ c (Proc.devRef .tc main_arg5) :=
  to8 m ρ c main_arg5 (by decide) (by dsimp only [hostOps1]; unwritten) (by decide) (by dsimp only [hostOps2]; unwritten) (by decide)

end Cert.KernelIdeal.Between

end
-- ==== Proof.LibRowOps.lean ====
/-
  Dense layers and row concatenations read one row at a time, at the ideal values.

  A network of dense layers acts on each row of a row-major array by itself.  This file fixes that row-level
  vocabulary — `dense` (a row times a weight matrix, plus a bias), `relu`, `cat2` / `cat3` / `cat4` (rows
  laid end to end) — and reads the array-level operations of both spellings at an index `(n, h)`:
  a kernel's `tpu.matmul` of narrowed operands into a zero accumulator plus a bias cast to one row and
  broadcast down the rows; the host's `dot_general` plus a bias broadcast in two steps; the positive part
  against a zero splat; a concatenation along the columns; the host's minimum over a middle axis of extent four; and the host's
  expansion of the logistic function.
  Everything is generic in the extents.
-/
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace RowOps

open Idealize.ShloMosaic Idealize.ShloMosaic.ValueIdx

/-! ## The row-level vocabulary -/

/-- A dense layer on one row: the row times the weight matrix, plus the bias. -/
def dense {K H : ℕ} (W : (⟨2, ![K, H]⟩ : Shape).Idx → EReal) (b : (⟨1, ![H]⟩ : Shape).Idx → EReal)
    (x : Fin K → EReal) : Fin H → EReal :=
  fun h => (∑ k : Fin K, x k * W (ix2 k h)) + b (ix1 h)

/-- The positive part, against the zero both programs spell as the all-zero word. -/
def relu {H : ℕ} (x : Fin H → EReal) : Fin H → EReal :=
  fun h => max (x h) (Ideal.ofBits .f32 0x00000000#32)

/-- Two rows laid end to end (a position past both reads zero; none is ever read). -/
def cat2 {A B : ℕ} (C : ℕ) (x : Fin A → EReal) (y : Fin B → EReal) : Fin C → EReal :=
  fun j => if h : j.val < A then x ⟨j.val, h⟩ else if h2 : j.val - A < B then y ⟨j.val - A, h2⟩ else 0

/-- Three rows laid end to end. -/
def cat3 {A B D : ℕ} (C : ℕ) (x : Fin A → EReal) (y : Fin B → EReal) (z : Fin D → EReal) : Fin C → EReal :=
  fun j => if h : j.val < A then x ⟨j.val, h⟩ else if h2 : j.val - A < B then y ⟨j.val - A, h2⟩
    else if h3 : j.val - A - B < D then z ⟨j.val - A - B, h3⟩ else 0

/-- Four rows laid end to end. -/
def cat4 {A B D E : ℕ} (C : ℕ) (x : Fin A → EReal) (y : Fin B → EReal) (z : Fin D → EReal) (w : Fin E → EReal) :
    Fin C → EReal :=
  fun j => if h : j.val < A then x ⟨j.val, h⟩ else if h2 : j.val - A < B then y ⟨j.val - A, h2⟩
    else if h3 : j.val - A - B < D then z ⟨j.val - A - B, h3⟩
    else if h4 : j.val - A - B - D < E then w ⟨j.val - A - B - D, h4⟩ else 0

/-! ## A plain matrix product read at an index -/

section Plain
variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum, re-indexed by the one contracted coordinate. -/
theorem plain_sum {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain matrix product into the zero splat, at `(p, q)`: row `p` of the left against column `q` of the right. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) := by
  subst hd
  show FloatOps.matmul (DotDims.plain M K N) prec l r (constant ⟨2, ![M, N]⟩ .f32 0x00000000#32) (ix2 p q) = _
  rw [Ideal.matmul_constant_zero_apply]
  exact plain_sum l r p q

/-- The host's plain matrix product at `(p, q)`: the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum l r p q

end Plain

/-! ## A bias along the columns, in both spellings -/

section Bias
variable {R H : ℕ} {α : Type}

/-- The kernel's spelling: the bias cast to one row, that row broadcast down the rows. -/
theorem bias_cast_apply (b : (⟨1, ![H]⟩ : Shape).Idx → α) (hsc : (⟨1, ![H]⟩ : Shape).ShapeCasts ⟨2, ![1, H]⟩)
    (hbc : (⟨2, ![1, H]⟩ : Shape).Broadcasts ⟨2, ![R, H]⟩) (n : Fin R) (h : Fin H) :
    broadcastTo ⟨2, ![R, H]⟩ (shapeCast ⟨2, ![1, H]⟩ b hsc) hbc (ix2 n h) = b (ix1 h) := by
  rw [broadcastTo_1b_ab_apply, shapeCast_a_1a_apply]

/-- The host's spelling: the bias broadcast to one row, then down the rows. -/
theorem bias_bcast_apply (b : (⟨1, ![H]⟩ : Shape).Idx → α) (d1 : Fin 1 → Fin 2) (hd1 : d1 0 = 1)
    (h1 : (⟨1, ![H]⟩ : Shape).BroadcastsInDim ⟨2, ![1, H]⟩ d1) (d2 : Fin 2 → Fin 2) (hd20 : d2 0 = 0) (hd21 : d2 1 = 1)
    (h2 : (⟨2, ![1, H]⟩ : Shape).BroadcastsInDim ⟨2, ![R, H]⟩ d2) (n : Fin R) (h : Fin H) :
    broadcastInDim ⟨2, ![R, H]⟩ d2 h2 (broadcastInDim ⟨2, ![1, H]⟩ d1 h1 b) (ix2 n h) = b (ix1 h) := by
  rw [broadcastInDim_apply d2 h2 _ (ix2 n h) (ix2 (0 : Fin 1) h) (fun a => by
    match a with
    | ⟨0, _⟩ => show 0 = if (1 : ℕ) = 1 then 0 else _; rw [if_pos rfl]
    | ⟨1, _⟩ =>
      show h.val = if H = 1 then 0 else (ix2 n h (d2 1)).val
      rw [hd21]
      split
      · have := h.isLt; omega
      · rfl)]
  exact broadcastInDim_apply d1 h1 b (ix2 (0 : Fin 1) h) (ix1 h) (fun a => by
    match a with
    | ⟨0, _⟩ =>
      show h.val = if H = 1 then 0 else (ix2 (0 : Fin 1) h (d1 0)).val
      rw [hd1]
      split
      · have := h.isLt; omega
      · rfl)

end Bias

/-! ## A dense layer of an array, read at a row -/

section Dense
variable {R K H : ℕ}

/-- The kernel's dense layer: the narrowed operands' product into the zero splat, plus the bias row. -/
theorem dense_kernel_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (hy : FTy.bf16.bits < FTy.f32.bits) (hW : FTy.bf16.bits < FTy.f32.bits)
    (hsc : (⟨1, ![H]⟩ : Shape).ShapeCasts ⟨2, ![1, H]⟩) (hbc : (⟨2, ![1, H]⟩ : Shape).Broadcasts ⟨2, ![R, H]⟩)
    (n : Fin R) (h : Fin H) :
    addf (matmul d none (truncf .bf16 y hy) (truncf .bf16 W hW) (constant ⟨2, ![R, H]⟩ .f32 0x00000000#32))
        (broadcastTo ⟨2, ![R, H]⟩ (shapeCast ⟨2, ![1, H]⟩ b hsc) hbc) (ix2 n h)
      = dense W b (fun k => y (ix2 n k)) h := by
  show matmul d none (truncf .bf16 y hy) (truncf .bf16 W hW) (constant ⟨2, ![R, H]⟩ .f32 0x00000000#32) (ix2 n h)
      + broadcastTo ⟨2, ![R, H]⟩ (shapeCast ⟨2, ![1, H]⟩ b hsc) hbc (ix2 n h) = _
  rw [matmul_plain_apply d hd, bias_cast_apply]
  rfl

/-- The host's dense layer: `dot_general` plus the bias broadcast in two steps. -/
theorem dense_host_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (d1 : Fin 1 → Fin 2) (hd1 : d1 0 = 1) (h1 : (⟨1, ![H]⟩ : Shape).BroadcastsInDim ⟨2, ![1, H]⟩ d1)
    (d2 : Fin 2 → Fin 2) (hd20 : d2 0 = 0) (hd21 : d2 1 = 1) (h2 : (⟨2, ![1, H]⟩ : Shape).BroadcastsInDim ⟨2, ![R, H]⟩ d2)
    (n : Fin R) (h : Fin H) :
    addf (Host.dotGeneral d none y W) (broadcastInDim ⟨2, ![R, H]⟩ d2 h2 (broadcastInDim ⟨2, ![1, H]⟩ d1 h1 b)) (ix2 n h)
      = dense W b (fun k => y (ix2 n k)) h := by
  show Host.dotGeneral d none y W (ix2 n h)
      + broadcastInDim ⟨2, ![R, H]⟩ d2 h2 (broadcastInDim ⟨2, ![1, H]⟩ d1 h1 b) (ix2 n h) = _
  rw [dotGeneral_plain_apply d hd, bias_bcast_apply b d1 hd1 h1 d2 hd20 hd21 h2]
  rfl

/-- The kernel's positive part: the maximum with a splat of the zero word. -/
theorem relu_kernel_apply (z : FVec Ideal ⟨2, ![R, H]⟩ .f32) (n : Fin R) (h : Fin H) :
    maximumf z (broadcast ⟨2, ![R, H]⟩ (Scalar.ofBits (F := Ideal) .f32 0x00000000#32)) (ix2 n h)
      = relu (fun j => z (ix2 n j)) h := rfl

/-- The host's positive part: the maximum with the zero constant broadcast from a scalar. -/
theorem relu_host_apply (z : FVec Ideal ⟨2, ![R, H]⟩ .f32) (d0 : Fin 0 → Fin 2)
    (hb : (⟨0, ![]⟩ : Shape).BroadcastsInDim ⟨2, ![R, H]⟩ d0) (n : Fin R) (h : Fin H) :
    maximumf z (broadcastInDim ⟨2, ![R, H]⟩ d0 hb (constant (F := Ideal) ⟨0, ![]⟩ .f32 0x00000000#32)) (ix2 n h)
      = relu (fun j => z (ix2 n j)) h := rfl

end Dense

/-! ## A concatenation along the columns, read at a row -/

section Cat
variable {R A B D E C : ℕ}

/-- Two arrays joined along the columns: row `n` of the result is the two rows laid end to end. -/
theorem cat2_apply (x : (⟨2, ![R, A]⟩ : Shape).Idx → EReal) (y : (⟨2, ![R, B]⟩ : Shape).Idx → EReal)
    (hc : Shape.Concatenates [(⟨2, ![R, A]⟩ : Shape), ⟨2, ![R, B]⟩] ⟨2, ![R, C]⟩ 1) (hC : C = A + B) (n : Fin R) (j : Fin C) :
    concatenate ⟨2, ![R, C]⟩ 1 [⟨⟨2, ![R, A]⟩, x⟩, ⟨⟨2, ![R, B]⟩, y⟩] hc (ix2 n j)
      = cat2 C (fun k => x (ix2 n k)) (fun k => y (ix2 n k)) j := by
  unfold cat2
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · have h2 : j.val - A < B := by omega
    rw [dif_neg hj, dif_pos h2]
    exact concatenate_apply_piece (1 : Fin (⟨2, ![R, C]⟩ : Shape).rank) [⟨⟨2, ![R, A]⟩, x⟩, ⟨⟨2, ![R, B]⟩, y⟩] hc (ix2 n j) 1 (by simp) ⟨2, ![R, B]⟩ y rfl rfl A
      (by simp) (ix2 n ⟨j.val - A, h2⟩) (fun b hb => by
        match b with
        | ⟨0, _⟩ => rfl
        | ⟨1, _⟩ => exact absurd (Fin.ext rfl) hb) (by show A + (j.val - A) = j.val; omega)

/-- Three arrays joined along the columns. -/
theorem cat3_apply (x : (⟨2, ![R, A]⟩ : Shape).Idx → EReal) (y : (⟨2, ![R, B]⟩ : Shape).Idx → EReal)
    (z : (⟨2, ![R, D]⟩ : Shape).Idx → EReal)
    (hc : Shape.Concatenates [(⟨2, ![R, A]⟩ : Shape), ⟨2, ![R, B]⟩, ⟨2, ![R, D]⟩] ⟨2, ![R, C]⟩ 1) (hC : C = A + B + D)
    (n : Fin R) (j : Fin C) :
    concatenate ⟨2, ![R, C]⟩ 1 [⟨⟨2, ![R, A]⟩, x⟩, ⟨⟨2, ![R, B]⟩, y⟩, ⟨⟨2, ![R, D]⟩, z⟩] hc (ix2 n j)
      = cat3 C (fun k => x (ix2 n k)) (fun k => y (ix2 n k)) (fun k => z (ix2 n k)) j := by
  unfold cat3
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · have h3 : j.val - A - B < D := by omega
      rw [dif_neg h2, dif_pos h3]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 2 (by simp) ⟨2, ![R, D]⟩ z rfl rfl (A + B)
        (by simp) (ix2 n ⟨j.val - A - B, h3⟩) (fun b hb => by
          match b with
          | ⟨0, _⟩ => rfl
          | ⟨1, _⟩ => exact absurd (Fin.ext rfl) hb) (by show A + B + (j.val - A - B) = j.val; omega)

/-- Four arrays joined along the columns. -/
theorem cat4_apply (x : (⟨2, ![R, A]⟩ : Shape).Idx → EReal) (y : (⟨2, ![R, B]⟩ : Shape).Idx → EReal)
    (z : (⟨2, ![R, D]⟩ : Shape).Idx → EReal) (w : (⟨2, ![R, E]⟩ : Shape).Idx → EReal)
    (hc : Shape.Concatenates [(⟨2, ![R, A]⟩ : Shape), ⟨2, ![R, B]⟩, ⟨2, ![R, D]⟩, ⟨2, ![R, E]⟩] ⟨2, ![R, C]⟩ 1)
    (hC : C = A + B + D + E) (n : Fin R) (j : Fin C) :
    concatenate ⟨2, ![R, C]⟩ 1 [⟨⟨2, ![R, A]⟩, x⟩, ⟨⟨2, ![R, B]⟩, y⟩, ⟨⟨2, ![R, D]⟩, z⟩, ⟨⟨2, ![R, E]⟩, w⟩] hc (ix2 n j)
      = cat4 C (fun k => x (ix2 n k)) (fun k => y (ix2 n k)) (fun k => z (ix2 n k)) (fun k => w (ix2 n k)) j := by
  unfold cat4
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · rw [dif_neg h2]
      by_cases h3 : j.val - A - B < D
      · rw [dif_pos h3]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 2 (by simp) ⟨2, ![R, D]⟩ z rfl rfl (A + B)
          (by simp) (ix2 n ⟨j.val - A - B, h3⟩) (fun b hb => by
            match b with
            | ⟨0, _⟩ => rfl
            | ⟨1, _⟩ => exact absurd (Fin.ext rfl) hb) (by show A + B + (j.val - A - B) = j.val; omega)
      · have h4 : j.val - A - B - D < E := by omega
        rw [dif_neg h3, dif_pos h4]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 3 (by simp) ⟨2, ![R, E]⟩ w rfl rfl
          (A + B + D) (by simp; omega) (ix2 n ⟨j.val - A - B - D, h4⟩) (fun b hb => by
            match b with
            | ⟨0, _⟩ => rfl
            | ⟨1, _⟩ => exact absurd (Fin.ext rfl) hb) (by show A + B + D + (j.val - A - B - D) = j.val; omega)

end Cat

/-! ## The host's minimum over a middle axis of extent four -/

section Min4
variable {R H : ℕ}

/-- A fold of a commutative, associative operation over the four positions, written out. -/
theorem fold_univ_fin4 {β : Type} (op : β → β → β) [Std.Commutative op] [Std.Associative op] (init : β) (f : Fin 4 → β) :
    (Finset.univ : Finset (Fin 4)).fold op init f = op (f 0) (op (f 1) (op (f 2) (op (f 3) init))) := by
  have hu : (Finset.univ : Finset (Fin 4)) = insert 0 (insert 1 (insert 2 {3})) := by decide
  rw [hu, Finset.fold_insert (by decide), Finset.fold_insert (by decide), Finset.fold_insert (by decide), Finset.fold_singleton]

/-- The reduced index `(n, c)` with the middle coordinate `k` put back is `(n, k, c)`. -/
theorem lift_mid (h : (⟨3, ![R, 4, H]⟩ : Shape).Reduces [1] (⟨2, ![R, H]⟩ : Shape)) (n : Fin R) (c : Fin H)
    (k : Fin ((⟨3, ![R, 4, H]⟩ : Shape).size 1)) : h.lift (ix2 n c) k = ix3 n (⟨k.val, k.isLt⟩ : Fin 4) c := by
  funext a; apply Fin.ext
  fin_cases a <;> rfl

/-- From +∞ the host's reduce with a minimum body over the middle axis, at `(n, c)`, is the least of the four entries. -/
theorem reduceMin4_apply (z : FVec Ideal ⟨3, ![R, 4, H]⟩ .f32)
    (h' : (⟨3, ![R, 4, H]⟩ : Shape).ReducesTo [1] (⟨2, ![R, H]⟩ : Shape))
    (h : (⟨3, ![R, 4, H]⟩ : Shape).Reduces [1] (⟨2, ![R, H]⟩ : Shape)) (hu : 0 < (⟨0, ![]⟩ : Shape).numel)
    (n : Fin R) (c : Fin H) :
    Host.reduce FloatOps.minimumf z (constant (F := Ideal) (⟨0, ![]⟩ : Shape) .f32 0x7F800000#32) h' hu (ix2 n c)
      = min (min (min (z (ix3 n 0 c)) (z (ix3 n 1 c))) (z (ix3 n 2 c))) (z (ix3 n 3 c)) := by
  rw [Host.reduce_eq_fold_single FloatOps.minimumf z _ h' h hu]
  have e := fold_univ_fin4 (min : Ideal .f32 → Ideal .f32 → Ideal .f32) (Ideal.ofBits .f32 0x7F800000#32)
    (fun k : Fin 4 => z (ix3 n k c))
  have htop : ∀ y : Ideal .f32, min y (Ideal.ofBits .f32 0x7F800000#32) = y := by
    intro y; show min y (Ideal.ofBits .f32 0x7F800000#32) = y; simp [Ideal.ofBits, Ideal.ieee]
  rw [htop, ← min_assoc, ← min_assoc] at e
  refine Eq.trans ?_ e
  have hf : (z ∘ h.lift (ix2 n c)) = fun k : Fin 4 => z (ix3 n k c) := funext fun k => congrArg z (lift_mid h n c k)
  exact congrArg (fun f => Finset.fold min (Ideal.ofBits .f32 0x7F800000#32) f (Finset.univ : Finset (Fin 4))) hf

end Min4

/-! ## Layout steps of a kernel body, read at a row -/

section Layout
variable {R P H : ℕ} {α : Type}

/-- One column broadcast across the columns: at `(n, h)` the column's entry in row `n`. -/
theorem broadcastTo_a1_ab_apply (v : (⟨2, ![R, 1]⟩ : Shape).Idx → α) (hbc : (⟨2, ![R, 1]⟩ : Shape).Broadcasts ⟨2, ![R, H]⟩)
    (n : Fin R) (h : Fin H) : broadcastTo ⟨2, ![R, H]⟩ v hbc (ix2 n h) = v (ix2 n (0 : Fin 1)) := by
  refine broadcastTo_apply v hbc (ix2 n h) (ix2 n (0 : Fin 1)) fun ax => ?_
  match ax with
  | ⟨0, _⟩ =>
    show n.val = if R = 1 then 0 else n.val
    split
    · have := n.isLt; omega
    · rfl
  | ⟨1, _⟩ => show 0 = if (1 : ℕ) = 1 then 0 else h.val; rw [if_pos rfl]

/-- A middle unit axis dropped by a shape cast: `(n, k)` reads `(n, 0, k)`. -/
theorem shapeCast_a1b_ab_apply (v : (⟨3, ![R, 1, H]⟩ : Shape).Idx → α) (hsc : (⟨3, ![R, 1, H]⟩ : Shape).ShapeCasts ⟨2, ![R, H]⟩)
    (n : Fin R) (k : Fin H) : shapeCast ⟨2, ![R, H]⟩ v hsc (ix2 n k) = v (ix3 n (0 : Fin 1) k) :=
  shapeCast_apply v hsc _ _ (by
    rw [Shape.rowMajor_val_three, Shape.rowMajor_val_two]
    show (n.val * 1 + 0) * H + k.val = n.val * H + k.val
    rw [Nat.mul_one, Nat.add_zero])

/-- A load of the slab at middle position `s` of a rank-3 buffer: `(n, 0, k)` of the slab is `(n, s, k)` of the buffer. -/
theorem ld_mid_apply {Val : EltTy → Type} {e : EltTy} (x : (⟨3, ![R, P, H]⟩ : Shape).Idx → Val e) (s : ℕ) (hs : s < P)
    (inb : ∀ a, (![0, s, 0] : Fin 3 → ℕ) a + (⟨3, ![R, 1, H]⟩ : Shape).size a ≤ (⟨3, ![R, P, H]⟩ : Shape).size a)
    (n : Fin R) (k : Fin H) :
    View.ld x (Rect.unit (s := ⟨3, ![R, P, H]⟩) ![0, s, 0] (⟨3, ![R, 1, H]⟩ : Shape).size inb) (ix3 n (0 : Fin 1) k)
      = x (ix3 n (⟨s, hs⟩ : Fin P) k) := by
  show x ((Rect.unit (s := ⟨3, ![R, P, H]⟩) ![0, s, 0] (⟨3, ![R, 1, H]⟩ : Shape).size inb).emb (ix3 n (0 : Fin 1) k)) = _
  refine congrArg x (funext fun a => Fin.ext ?_)
  match a with
  | ⟨0, _⟩ => show 0 + 1 * n.val = n.val; omega
  | ⟨1, _⟩ => show s + 1 * 0 = s; omega
  | ⟨2, _⟩ => show 0 + 1 * k.val = k.val; omega

/-- A kernel's logistic function, entry by entry. -/
theorem logistic_apply {s : Shape} (a : FVec Ideal s .f32) (i : s.Idx) : logistic a i = Ideal.logistic (a i) := rfl

end Layout

/-! ## The host's dense layer with its printed broadcast dimensions, and its logistic function -/

section Host
variable {R K H : ℕ}

/-- `dense_host_apply` at the usual broadcast dimensions: the bias to axis 1 of one row, that row to both axes. -/
theorem dense_host_apply' (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (h1 : (⟨1, ![H]⟩ : Shape).BroadcastsInDim ⟨2, ![1, H]⟩ ![1]) (h2 : (⟨2, ![1, H]⟩ : Shape).BroadcastsInDim ⟨2, ![R, H]⟩ ![0, 1])
    (n : Fin R) (h : Fin H) :
    addf (Host.dotGeneral d none y W) (broadcastInDim ⟨2, ![R, H]⟩ ![0, 1] h2 (broadcastInDim ⟨2, ![1, H]⟩ ![1] h1 b)) (ix2 n h)
      = dense W b (fun k => y (ix2 n k)) h :=
  dense_host_apply d hd y W b _ rfl h1 _ rfl rfl h2 n h

/-- The logistic function spelt out on the host — one over one plus the exponential of the negation,
    the ones broadcast from a scalar constant — is the logistic function of the entry. -/
theorem logistic_host_apply {s : Shape} (z : FVec Ideal s .f32) (d0 : Fin 0 → Fin s.rank)
    (hb1 hb2 : (⟨0, ![]⟩ : Shape).BroadcastsInDim s d0) (i : s.Idx) :
    Host.divf (broadcastInDim s d0 hb1 (constant (F := Ideal) ⟨0, ![]⟩ .f32 0x3F800000#32))
        (addf (broadcastInDim s d0 hb2 (constant (F := Ideal) ⟨0, ![]⟩ .f32 0x3F800000#32)) (Host.exp (Host.negf z))) i
      = Ideal.logistic (z i) := by
  show FloatOps.hostDivf (Ideal.ofBits .f32 0x3F800000#32)
      (FloatOps.addf (Ideal.ofBits .f32 0x3F800000#32) (FloatOps.hostUnary .exp (FloatOps.hostNegf (z i)))) = _
  rw [Ideal.ofBits_one_f32]
  rfl

end Host

end RowOps

end
-- ==== Proof.Region0.lean ====
/-
  The first region multiplies the node features by the transposed first weight matrix.  The grid has five points; point
  `t` takes rows `2000 t … 2000 t + 1999` of the features (all 384 columns) and the whole 384 × 48 weight array, and writes
  back the 2000 × 48 block whose entry `(p, q)` is the exact sum over `k` of feature `(p, k)` times weight `(k, q)`: at the
  ideal values narrowing the operands changes nothing and the product into a zero accumulator is that sum.  The five
  blocks tile the 10000 rows, so the output array is the product of the two arrays the region found, which is also what
  the host's `dot_general` over the same axes computes.
-/
import proofs.«125568_j23021024706912_1_alg».proof.Proof.Gen.KernelIdeal.Frame
import proofs.«125568_j23021024706912_1_alg».proof.Proof.LibRowOps
import Idealize.ShloMosaic.Lib.Pipeline.Value
import Idealize.ShloMosaic.Lib.ValueIdx
import Idealize.ShloMosaic.Lib.ValueLayout

set_option maxRecDepth 16384

noncomputable section

namespace Cert.KernelIdeal.Project1

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The two arrays the region finds, at their literal types. -/
abbrev arrA (c : Dev nD) : S10000x384.Idx → EReal := V c main_arg0
abbrev arrB (c : Dev nD) : S384x48.Idx → EReal := V c main_v30

/-- The product of two arrays as exact sums: entry `(n, q)` is row `n` of the first against column `q` of the second. -/
def rowsTimes (a : S10000x384.Idx → EReal) (b : S384x48.Idx → EReal) : S10000x48.Idx → EReal :=
  fun i => ∑ k : Fin 384, a (ix2 (i 0) k) * b (ix2 k (i 1))

/-- The body's arithmetic at entry `(p, q)` of a block: the block's row `p` against the weights' column `q`
    (narrowing an operand is the identity on exact values, and the accumulator starts at zero). -/
theorem pay_apply (x0 : Vec Ideal S2000x384 .f32) (x1 : Vec Ideal S384x48 .f32) (p : Fin 2000) (q : Fin 48) :
    k0_pay1 x0 x1 (ix2 p q) = ∑ k : Fin 384, x0 (ix2 p k) * x1 (ix2 k q) := by
  unfold k0_pay1
  show matmul (F := Ideal) dot_S2000x384_S384x48_S2000x48_1_0_0_1_n_n none
      (truncf (F := Ideal) .bf16 (x0 : FVec Ideal S2000x384 .f32) bitsLt_bf16_f32)
      (truncf (F := Ideal) .bf16 (shapeCast S384x48 (x1 : FVec Ideal S384x48 .f32) shapeCasts_S384x48_S384x48) bitsLt_bf16_f32)
      (constant S2000x48 .f32 0x00000000#32) (ix2 p q) = _
  rw [shapeCast_self]
  refine (RowOps.matmul_plain_apply dot_S2000x384_S384x48_S2000x48_1_0_0_1_n_n rfl none _ _ p q).trans ?_
  rfl

/-- The printed index maps over the grid: the row blocks move with the point, the weights stay. -/
theorem idx_facts : ∀ t : Fin cfg0.N, win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- What point `t` writes back is block `t` of `rowsTimes` of the two arrays as the region finds them. -/
theorem flushed_eq (c : Dev nD) (t : Fin cfg0.N) :
    (dat0 V c).flushed 2 t
      = ((cfg0.win 2).blk t).view.read (Elt Ideal) (rowsTimes (V c main_arg0) (V c main_v30)) := by
  show (cfg0.win 2).cut (grid0.coords t) ((dat0 V c).after 2 t) = _
  rw [after0_2]
  unfold out0_2
  rw [View.canon_unit_zero hz]
  simp only [View.ld_unit_zero (S := S2000x384) hz, View.ld_unit_zero (S := S384x48) hz]
  obtain ⟨e0, e1, e2, e3, e4, e5⟩ := idx_facts t
  funext j
  obtain ⟨p, q, rfl⟩ : ∃ (p : Fin 2000) (q : Fin 48), j = ix2 p q := ⟨j 0, j 1, eq_ix2 j⟩
  refine (pay_apply _ _ p q).trans ?_
  show (∑ k : Fin 384, arrA V c (((cfg0.win 0).blk t).view.emb (ix2 p k)) * arrB V c (((cfg0.win 1).blk t).view.emb (ix2 k q)))
    = ∑ k : Fin 384, arrA V c (ix2 ((((cfg0.win 2).blk t).view.emb (ix2 p q)) 0) k) * arrB V c (ix2 k ((((cfg0.win 2).blk t).view.emb (ix2 p q)) 1))
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 384 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 384 + 1 * k.val = k.val; omega
    | ⟨1, _⟩ => show win0_1.index t (1 : Fin 2) * 48 + 1 * q.val = win0_2.index t (1 : Fin 2) * 48 + 1 * q.val; omega
  rw [h0, h1]
  all_goals rfl

/-- An index of the array is in point `t`'s block iff each coordinate is in the block's range on its axis. -/
theorem mem_blk (t : Fin cfg0.N) (i : S10000x48.Idx) :
    i ∈ ((cfg0.win 2).blk t).view.set ↔ ∀ a : Fin 2, win0_2.index t a * S2000x48.size a ≤ (i a).val ∧ (i a).val < win0_2.index t a * S2000x48.size a + S2000x48.size a := by
  show i ∈ ((View.whole main_v31).slice (win0_2.rect t)).set ↔ _
  rw [View.set_slice_whole, Rect.mem_set_unit]
  exact Iff.rfl

/-- Every index lies in the block of the point its row falls in. -/
theorem cover (i : S10000x48.Idx) :
    ∃ t : Fin cfg0.N, (cfg0.win 2).flush t = true ∧ i ∈ ((cfg0.win 2).blk t).view.set := by
  have hi0 : (i 0).val < 10000 := (i 0).isLt
  have hi1 : (i 1).val < 48 := (i 1).isLt
  have hN : cfg0.N = 5 := N_0
  let t : Fin cfg0.N := ⟨(i 0).val / 2000, by rw [hN]; omega⟩
  obtain ⟨e0, e1, -⟩ := idx_facts t
  refine ⟨t, flush0_2 t, ?_⟩
  rw [mem_blk]
  intro a
  match a with
  | ⟨0, _⟩ =>
    show win0_2.index t (0 : Fin 2) * 2000 ≤ (i 0).val ∧ (i 0).val < win0_2.index t (0 : Fin 2) * 2000 + 2000
    rw [e0]; show (i 0).val / 2000 * 2000 ≤ (i 0).val ∧ (i 0).val < (i 0).val / 2000 * 2000 + 2000; omega
  | ⟨1, _⟩ =>
    show win0_2.index t (1 : Fin 2) * 48 ≤ (i 1).val ∧ (i 1).val < win0_2.index t (1 : Fin 2) * 48 + 48
    rw [e1]; omega

/-- The output array after the region: the product of the two arrays the region found. -/
theorem arr_eq (c : Dev nD) : (dat0 V c).arrAt 2 cfg0.N = rowsTimes (V c main_arg0) (V c main_v30) :=
  (dat0 V c).arrAt_eq_of_cover 2 _ (fun t _ => flushed_eq V c t) cover

/-- `rowsTimes` is the host's plain `dot_general` (rows of the first operand against columns of the second). -/
theorem rowsTimes_host (a : S10000x384.Idx → EReal) (b : S384x48.Idx → EReal) (d : DotDims S10000x384 S384x48 S10000x48)
    (hd : d = DotDims.plain 10000 384 48) :
    rowsTimes a b = Host.dotGeneral (F := Ideal) (φ₁ := .f32) (φ₂ := .f32) d none a b := by
  funext i
  obtain ⟨n, q, rfl⟩ : ∃ (n : Fin 10000) (q : Fin 48), i = ix2 n q := ⟨i 0, i 1, eq_ix2 i⟩
  exact (RowOps.dotGeneral_plain_apply d hd none a b n q).symm

end Cert.KernelIdeal.Project1

end
-- ==== Proof.Region1.lean ====
/-
  The second region adds the first bias to every row of the aggregated hidden array and takes the positive part.
  The grid has five points; point `t` takes rows `2000 t … 2000 t + 1999` (all 48 columns) and the one bias row, and
  writes back the block whose entry `(p, q)` is `max (a (p, q) + b (0, q)) 0`.  The five blocks tile the 10000 rows, so
  the output array ends as one function of the two arrays the region found.  When the bias row is the bias vector cast
  to one row, that function is the host's sum with the vector broadcast in two steps, followed by the host's maximum
  with a zero constant broadcast from a scalar.
-/
import proofs.«125568_j23021024706912_1_alg».proof.Proof.Gen.KernelIdeal.Frame
import proofs.«125568_j23021024706912_1_alg».proof.Proof.LibRowOps
import Idealize.ShloMosaic.Lib.Pipeline.Value
import Idealize.ShloMosaic.Lib.ValueIdx
import Idealize.ShloMosaic.Lib.ValueLayout

set_option maxRecDepth 16384

noncomputable section

namespace Cert.KernelIdeal.BiasRelu

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The two arrays the region finds, at their literal types. -/
abbrev arrA (c : Dev nD) : S10000x48.Idx → EReal := V c main_v44
abbrev arrB (c : Dev nD) : S1x48.Idx → EReal := V c main_v45

/-- The positive part of every row of `a` plus the one row `b`. -/
def rowsPlusPos (a : S10000x48.Idx → EReal) (b : S1x48.Idx → EReal) : S10000x48.Idx → EReal :=
  fun i => max (a i + b (ix2 (0 : Fin 1) (i 1))) (Ideal.ofBits .f32 0x00000000#32)

/-- The body's arithmetic at entry `(p, q)` of a block. -/
theorem pay_apply (x0 : Vec Ideal S2000x48 .f32) (x1 : Vec Ideal S1x48 .f32) (p : Fin 2000) (q : Fin 48) :
    k1_pay1 x0 x1 (ix2 p q) = max (x0 (ix2 p q) + x1 (ix2 (0 : Fin 1) q)) (Ideal.ofBits .f32 0x00000000#32) := by
  unfold k1_pay1
  show max (shapeCast S2000x48 x0 shapeCasts_S2000x48_S2000x48 (ix2 p q)
      + broadcastTo S2000x48 (shapeCast S1x48 x1 shapeCasts_S1x48_S1x48) broadcasts_S1x48_S2000x48 (ix2 p q))
      (Ideal.ofBits .f32 0x00000000#32) = _
  rw [shapeCast_self, shapeCast_self, broadcastTo_1b_ab_apply]

/-- The printed index maps over the grid: the row blocks move with the point, the bias row stays. -/
theorem idx_facts : ∀ t : Fin cfg1.N, win1_2.index t (0 : Fin 2) = t.val ∧ win1_2.index t (1 : Fin 2) = 0
    ∧ win1_0.index t (0 : Fin 2) = t.val ∧ win1_0.index t (1 : Fin 2) = 0
    ∧ win1_1.index t (0 : Fin 2) = 0 ∧ win1_1.index t (1 : Fin 2) = 0 :=
  (by decide +kernel : ∀ t : Fin grid1.N, _)

/-- What point `t` writes back is block `t` of `rowsPlusPos` of the two arrays as the region finds them. -/
theorem flushed_eq (c : Dev nD) (t : Fin cfg1.N) :
    (dat1 V c).flushed 2 t
      = ((cfg1.win 2).blk t).view.read (Elt Ideal) (rowsPlusPos (V c main_v44) (V c main_v45)) := by
  show (cfg1.win 2).cut (grid1.coords t) ((dat1 V c).after 2 t) = _
  rw [after1_2]
  unfold out1_2
  rw [View.canon_unit_zero hz]
  simp only [View.ld_unit_zero (S := S2000x48) hz, View.ld_unit_zero (S := S1x48) hz]
  obtain ⟨e0, e1, e2, e3, e4, e5⟩ := idx_facts t
  funext j
  obtain ⟨p, q, rfl⟩ : ∃ (p : Fin 2000) (q : Fin 48), j = ix2 p q := ⟨j 0, j 1, eq_ix2 j⟩
  refine (pay_apply _ _ p q).trans ?_
  show max (arrA V c (((cfg1.win 0).blk t).view.emb (ix2 p q)) + arrB V c (((cfg1.win 1).blk t).view.emb (ix2 (0 : Fin 1) q))) _
    = max (arrA V c (((cfg1.win 2).blk t).view.emb (ix2 p q)) + arrB V c (ix2 (0 : Fin 1) ((((cfg1.win 2).blk t).view.emb (ix2 p q)) 1))) _
  have h0 : ((cfg1.win 0).blk t).view.emb (ix2 p q) = ((cfg1.win 2).blk t).view.emb (ix2 p q) := by
    funext a; apply Fin.ext
    match a with
    | ⟨0, _⟩ => show win1_0.index t (0 : Fin 2) * 2000 + 1 * p.val = win1_2.index t (0 : Fin 2) * 2000 + 1 * p.val; omega
    | ⟨1, _⟩ => show win1_0.index t (1 : Fin 2) * 48 + 1 * q.val = win1_2.index t (1 : Fin 2) * 48 + 1 * q.val; omega
  have h1 : ((cfg1.win 1).blk t).view.emb (ix2 (0 : Fin 1) q)
      = ix2 (0 : Fin 1) ((((cfg1.win 2).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 48 + 1 * q.val = win1_2.index t (1 : Fin 2) * 48 + 1 * q.val; omega
  rw [h0, h1]
  all_goals rfl

/-- An index of the array is in point `t`'s block iff each coordinate is in the block's range on its axis. -/
theorem mem_blk (t : Fin cfg1.N) (i : S10000x48.Idx) :
    i ∈ ((cfg1.win 2).blk t).view.set ↔ ∀ a : Fin 2, win1_2.index t a * S2000x48.size a ≤ (i a).val ∧ (i a).val < win1_2.index t a * S2000x48.size a + S2000x48.size a := by
  show i ∈ ((View.whole main_v46).slice (win1_2.rect t)).set ↔ _
  rw [View.set_slice_whole, Rect.mem_set_unit]
  exact Iff.rfl

/-- Every index lies in the block of the point its row falls in. -/
theorem cover (i : S10000x48.Idx) :
    ∃ t : Fin cfg1.N, (cfg1.win 2).flush t = true ∧ i ∈ ((cfg1.win 2).blk t).view.set := by
  have hi0 : (i 0).val < 10000 := (i 0).isLt
  have hi1 : (i 1).val < 48 := (i 1).isLt
  have hN : cfg1.N = 5 := N_1
  let t : Fin cfg1.N := ⟨(i 0).val / 2000, by rw [hN]; omega⟩
  obtain ⟨e0, e1, -⟩ := idx_facts t
  refine ⟨t, flush1_2 t, ?_⟩
  rw [mem_blk]
  intro a
  match a with
  | ⟨0, _⟩ =>
    show win1_2.index t (0 : Fin 2) * 2000 ≤ (i 0).val ∧ (i 0).val < win1_2.index t (0 : Fin 2) * 2000 + 2000
    rw [e0]; show (i 0).val / 2000 * 2000 ≤ (i 0).val ∧ (i 0).val < (i 0).val / 2000 * 2000 + 2000; omega
  | ⟨1, _⟩ =>
    show win1_2.index t (1 : Fin 2) * 48 ≤ (i 1).val ∧ (i 1).val < win1_2.index t (1 : Fin 2) * 48 + 48
    rw [e1]; omega

/-- The output array after the region. -/
theorem arr_eq (c : Dev nD) : (dat1 V c).arrAt 2 cfg1.N = rowsPlusPos (V c main_v44) (V c main_v45) :=
  (dat1 V c).arrAt_eq_of_cover 2 _ (fun t _ => flushed_eq V c t) cover

/-- With the bias row the bias vector cast to one row, `rowsPlusPos` is the host's sum with the vector broadcast to a
    row and the row broadcast down the rows, then the host's maximum with the zero constant broadcast from a scalar. -/
theorem rowsPlusPos_host (a : S10000x48.Idx → EReal) (b : S48.Idx → EReal) (hsc : S48.ShapeCasts S1x48)
    (h1 : S48.BroadcastsInDim S1x48 ![1]) (h2 : S1x48.BroadcastsInDim S10000x48 ![0, 1])
    (h0 : S_.BroadcastsInDim S10000x48 ![]) :
    rowsPlusPos a (shapeCast S1x48 b hsc)
      = maximumf (F := Ideal) (φ := .f32)
          (addf (F := Ideal) (φ := .f32) a (broadcastInDim S10000x48 ![0, 1] h2 (broadcastInDim S1x48 ![1] h1 b)))
          (broadcastInDim S10000x48 ![] h0 (constant (F := Ideal) S_ .f32 0x00000000#32)) := by
  funext i
  obtain ⟨n, q, rfl⟩ : ∃ (n : Fin 10000) (q : Fin 48), i = ix2 n q := ⟨i 0, i 1, eq_ix2 i⟩
  show max (a (ix2 n q) + shapeCast S1x48 b hsc (ix2 (0 : Fin 1) q)) (Ideal.ofBits .f32 0x00000000#32)
      = max (a (ix2 n q) + broadcastInDim S10000x48 ![0, 1] h2 (broadcastInDim S1x48 ![1] h1 b) (ix2 n q)) (Ideal.ofBits .f32 0x00000000#32)
  rw [shapeCast_a_1a_apply, RowOps.bias_bcast_apply b _ rfl h1 _ rfl rfl h2]

end Cert.KernelIdeal.BiasRelu

end
-- ==== Proof.Region2.lean ====
/-
  The third region multiplies the hidden activations by the transposed second weight matrix.  The grid has five points;
  point `t` takes rows `2000 t … 2000 t + 1999` of the activations (all 48 columns) and the whole 48 × 384 weight array, and
  writes back the 2000 × 384 block whose entry `(p, q)` is the exact sum over `k` of activation `(p, k)` times weight
  `(k, q)`: at the ideal values narrowing the operands changes nothing and the product into a zero accumulator is that sum.
  The five blocks tile the 10000 rows, so the output array is the product of the two arrays the region found, which is
  also what the host's `dot_general` over the same axes computes.
-/
import proofs.«125568_j23021024706912_1_alg».proof.Proof.Gen.KernelIdeal.Frame
import proofs.«125568_j23021024706912_1_alg».proof.Proof.LibRowOps
import Idealize.ShloMosaic.Lib.Pipeline.Value
import Idealize.ShloMosaic.Lib.ValueIdx
import Idealize.ShloMosaic.Lib.ValueLayout

set_option maxRecDepth 16384

noncomputable section

namespace Cert.KernelIdeal.Project2

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The two arrays the region finds, at their literal types. -/
abbrev arrA (c : Dev nD) : S10000x48.Idx → EReal := V c main_v46
abbrev arrB (c : Dev nD) : S48x384.Idx → EReal := V c main_v47

/-- The product of two arrays as exact sums: entry `(n, q)` is row `n` of the first against column `q` of the second. -/
def rowsTimes (a : S10000x48.Idx → EReal) (b : S48x384.Idx → EReal) : S10000x384.Idx → EReal :=
  fun i => ∑ k : Fin 48, a (ix2 (i 0) k) * b (ix2 k (i 1))

/-- The body's arithmetic at entry `(p, q)` of a block: the block's row `p` against the weights' column `q`
    (narrowing an operand is the identity on exact values, and the accumulator starts at zero). -/
theorem pay_apply (x0 : Vec Ideal S2000x48 .f32) (x1 : Vec Ideal S48x384 .f32) (p : Fin 2000) (q : Fin 384) :
    k2_pay1 x0 x1 (ix2 p q) = ∑ k : Fin 48, x0 (ix2 p k) * x1 (ix2 k q) := by
  unfold k2_pay1
  show matmul (F := Ideal) dot_S2000x48_S48x384_S2000x384_1_0_0_1_n_n none
      (truncf (F := Ideal) .bf16 (shapeCast S2000x48 (x0 : FVec Ideal S2000x48 .f32) shapeCasts_S2000x48_S2000x48) bitsLt_bf16_f32)
      (truncf (F := Ideal) .bf16 (shapeCast S48x384 (x1 : FVec Ideal S48x384 .f32) shapeCasts_S48x384_S48x384) bitsLt_bf16_f32)
      (constant S2000x384 .f32 0x00000000#32) (ix2 p q) = _
  rw [shapeCast_self, shapeCast_self]
  refine (RowOps.matmul_plain_apply dot_S2000x48_S48x384_S2000x384_1_0_0_1_n_n rfl none _ _ p q).trans ?_
  rfl

/-- The printed index maps over the grid: the row blocks move with the point, the weights stay. -/
theorem idx_facts : ∀ t : Fin cfg2.N, win2_2.index t (0 : Fin 2) = t.val ∧ win2_2.index t (1 : Fin 2) = 0
    ∧ win2_0.index t (0 : Fin 2) = t.val ∧ win2_0.index t (1 : Fin 2) = 0
    ∧ win2_1.index t (0 : Fin 2) = 0 ∧ win2_1.index t (1 : Fin 2) = 0 :=
  (by decide +kernel : ∀ t : Fin grid2.N, _)

/-- What point `t` writes back is block `t` of `rowsTimes` of the two arrays as the region finds them. -/
theorem flushed_eq (c : Dev nD) (t : Fin cfg2.N) :
    (dat2 V c).flushed 2 t
      = ((cfg2.win 2).blk t).view.read (Elt Ideal) (rowsTimes (V c main_v46) (V c main_v47)) := by
  show (cfg2.win 2).cut (grid2.coords t) ((dat2 V c).after 2 t) = _
  rw [after2_2]
  unfold out2_2
  rw [View.canon_unit_zero hz]
  simp only [View.ld_unit_zero (S := S2000x48) hz, View.ld_unit_zero (S := S48x384) hz]
  obtain ⟨e0, e1, e2, e3, e4, e5⟩ := idx_facts t
  funext j
  obtain ⟨p, q, rfl⟩ : ∃ (p : Fin 2000) (q : Fin 384), j = ix2 p q := ⟨j 0, j 1, eq_ix2 j⟩
  refine (pay_apply _ _ p q).trans ?_
  show (∑ k : Fin 48, arrA V c (((cfg2.win 0).blk t).view.emb (ix2 p k)) * arrB V c (((cfg2.win 1).blk t).view.emb (ix2 k q)))
    = ∑ k : Fin 48, arrA V c (ix2 ((((cfg2.win 2).blk t).view.emb (ix2 p q)) 0) k) * arrB V c (ix2 k ((((cfg2.win 2).blk t).view.emb (ix2 p q)) 1))
  refine Finset.sum_congr rfl fun k _ => ?_
  have h0 : ((cfg2.win 0).blk t).view.emb (ix2 p k) = ix2 ((((cfg2.win 2).blk t).view.emb (ix2 p q)) 0) k := by
    funext a; apply Fin.ext
    match a with
    | ⟨0, _⟩ => show win2_0.index t (0 : Fin 2) * 2000 + 1 * p.val = win2_2.index t (0 : Fin 2) * 2000 + 1 * p.val; omega
    | ⟨1, _⟩ => show win2_0.index t (1 : Fin 2) * 48 + 1 * k.val = k.val; omega
  have h1 : ((cfg2.win 1).blk t).view.emb (ix2 k q) = ix2 k ((((cfg2.win 2).blk t).view.emb (ix2 p q)) 1) := by
    funext a; apply Fin.ext
    match a with
    | ⟨0, _⟩ => show win2_1.index t (0 : Fin 2) * 48 + 1 * k.val = k.val; omega
    | ⟨1, _⟩ => show win2_1.index t (1 : Fin 2) * 384 + 1 * q.val = win2_2.index t (1 : Fin 2) * 384 + 1 * q.val; omega
  rw [h0, h1]
  all_goals rfl

/-- An index of the array is in point `t`'s block iff each coordinate is in the block's range on its axis. -/
theorem mem_blk (t : Fin cfg2.N) (i : S10000x384.Idx) :
    i ∈ ((cfg2.win 2).blk t).view.set ↔ ∀ a : Fin 2, win2_2.index t a * S2000x384.size a ≤ (i a).val ∧ (i a).val < win2_2.index t a * S2000x384.size a + S2000x384.size a := by
  show i ∈ ((View.whole main_v48).slice (win2_2.rect t)).set ↔ _
  rw [View.set_slice_whole, Rect.mem_set_unit]
  exact Iff.rfl

/-- Every index lies in the block of the point its row falls in. -/
theorem cover (i : S10000x384.Idx) :
    ∃ t : Fin cfg2.N, (cfg2.win 2).flush t = true ∧ i ∈ ((cfg2.win 2).blk t).view.set := by
  have hi0 : (i 0).val < 10000 := (i 0).isLt
  have hi1 : (i 1).val < 384 := (i 1).isLt
  have hN : cfg2.N = 5 := N_2
  let t : Fin cfg2.N := ⟨(i 0).val / 2000, by rw [hN]; omega⟩
  obtain ⟨e0, e1, -⟩ := idx_facts t
  refine ⟨t, flush2_2 t, ?_⟩
  rw [mem_blk]
  intro a
  match a with
  | ⟨0, _⟩ =>
    show win2_2.index t (0 : Fin 2) * 2000 ≤ (i 0).val ∧ (i 0).val < win2_2.index t (0 : Fin 2) * 2000 + 2000
    rw [e0]; show (i 0).val / 2000 * 2000 ≤ (i 0).val ∧ (i 0).val < (i 0).val / 2000 * 2000 + 2000; omega
  | ⟨1, _⟩ =>
    show win2_2.index t (1 : Fin 2) * 384 ≤ (i 1).val ∧ (i 1).val < win2_2.index t (1 : Fin 2) * 384 + 384
    rw [e1]; omega

/-- The output array after the region: the product of the two arrays the region found. -/
theorem arr_eq (c : Dev nD) : (dat2 V c).arrAt 2 cfg2.N = rowsTimes (V c main_v46) (V c main_v47) :=
  (dat2 V c).arrAt_eq_of_cover 2 _ (fun t _ => flushed_eq V c t) cover

/-- `rowsTimes` is the host's plain `dot_general` (rows of the first operand against columns of the second). -/
theorem rowsTimes_host (a : S10000x48.Idx → EReal) (b : S48x384.Idx → EReal) (d : DotDims S10000x48 S48x384 S10000x384)
    (hd : d = DotDims.plain 10000 48 384) :
    rowsTimes a b = Host.dotGeneral (F := Ideal) (φ₁ := .f32) (φ₂ := .f32) d none a b := by
  funext i
  obtain ⟨n, q, rfl⟩ : ∃ (n : Fin 10000) (q : Fin 384), i = ix2 n q := ⟨i 0, i 1, eq_ix2 i⟩
  exact (RowOps.dotGeneral_plain_apply d hd none a b n q).symm

end Cert.KernelIdeal.Project2

end
-- ==== Proof.Region3.lean ====
/-
  The last region adds the second bias to every row.  The grid has five points; point `t` takes rows
  `2000 t … 2000 t + 1999` of the aggregated array (all 384 columns) and the one bias row, and writes back the block
  whose entry `(p, q)` is the aggregated entry plus the bias at column `q`.  The five blocks tile the 10000 rows, so
  the output array ends as one function of the two arrays the region found: entry `(n, q)` is `a (n, q) + b (0, q)`.
  When the bias row is the bias vector cast to one row, that is the host's sum of the array with the vector
  broadcast in two steps.
-/
import proofs.«125568_j23021024706912_1_alg».proof.Proof.Gen.KernelIdeal.Frame
import proofs.«125568_j23021024706912_1_alg».proof.Proof.LibRowOps
import Idealize.ShloMosaic.Lib.Pipeline.Value
import Idealize.ShloMosaic.Lib.ValueIdx
import Idealize.ShloMosaic.Lib.ValueLayout

set_option maxRecDepth 16384

noncomputable section

namespace Cert.KernelIdeal.BiasOut

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The two arrays the region finds, at their literal types. -/
abbrev arrA (c : Dev nD) : S10000x384.Idx → EReal := V c main_v61
abbrev arrB (c : Dev nD) : S1x384.Idx → EReal := V c main_v62

/-- Every row of `a` plus the one row `b`. -/
def rowsPlus (a : S10000x384.Idx → EReal) (b : S1x384.Idx → EReal) : S10000x384.Idx → EReal :=
  fun i => a i + b (ix2 (0 : Fin 1) (i 1))

/-- The body's arithmetic at entry `(p, q)` of a block: the entry plus the bias row at `q`. -/
theorem pay_apply (x0 : Vec Ideal S2000x384 .f32) (x1 : Vec Ideal S1x384 .f32) (p : Fin 2000) (q : Fin 384) :
    k3_pay1 x0 x1 (ix2 p q) = x0 (ix2 p q) + x1 (ix2 (0 : Fin 1) q) := by
  unfold k3_pay1
  show shapeCast S2000x384 x0 shapeCasts_S2000x384_S2000x384 (ix2 p q)
      + broadcastTo S2000x384 (shapeCast S1x384 x1 shapeCasts_S1x384_S1x384) broadcasts_S1x384_S2000x384 (ix2 p q) = _
  rw [shapeCast_self, shapeCast_self, broadcastTo_1b_ab_apply]

/-- The printed index maps over the grid: the row blocks move with the point, the bias row stays. -/
theorem idx_facts : ∀ t : Fin cfg3.N, win3_2.index t (0 : Fin 2) = t.val ∧ win3_2.index t (1 : Fin 2) = 0
    ∧ win3_0.index t (0 : Fin 2) = t.val ∧ win3_0.index t (1 : Fin 2) = 0
    ∧ win3_1.index t (0 : Fin 2) = 0 ∧ win3_1.index t (1 : Fin 2) = 0 :=
  (by decide +kernel : ∀ t : Fin grid3.N, _)

/-- What point `t` writes back is block `t` of `rowsPlus` of the two arrays as the region finds them. -/
theorem flushed_eq (c : Dev nD) (t : Fin cfg3.N) :
    (dat3 V c).flushed 2 t
      = ((cfg3.win 2).blk t).view.read (Elt Ideal) (rowsPlus (V c main_v61) (V c main_v62)) := by
  show (cfg3.win 2).cut (grid3.coords t) ((dat3 V c).after 2 t) = _
  rw [after3_2]
  unfold out3_2
  rw [View.canon_unit_zero hz]
  simp only [View.ld_unit_zero (S := S2000x384) hz, View.ld_unit_zero (S := S1x384) hz]
  obtain ⟨e0, e1, e2, e3, e4, e5⟩ := idx_facts t
  funext j
  obtain ⟨p, q, rfl⟩ : ∃ (p : Fin 2000) (q : Fin 384), j = ix2 p q := ⟨j 0, j 1, eq_ix2 j⟩
  refine (pay_apply _ _ p q).trans ?_
  show arrA V c (((cfg3.win 0).blk t).view.emb (ix2 p q)) + arrB V c (((cfg3.win 1).blk t).view.emb (ix2 (0 : Fin 1) q))
    = arrA V c (((cfg3.win 2).blk t).view.emb (ix2 p q)) + arrB V c (ix2 (0 : Fin 1) ((((cfg3.win 2).blk t).view.emb (ix2 p q)) 1))
  have h0 : ((cfg3.win 0).blk t).view.emb (ix2 p q) = ((cfg3.win 2).blk t).view.emb (ix2 p q) := by
    funext a; apply Fin.ext
    match a with
    | ⟨0, _⟩ => show win3_0.index t (0 : Fin 2) * 2000 + 1 * p.val = win3_2.index t (0 : Fin 2) * 2000 + 1 * p.val; omega
    | ⟨1, _⟩ => show win3_0.index t (1 : Fin 2) * 384 + 1 * q.val = win3_2.index t (1 : Fin 2) * 384 + 1 * q.val; omega
  have h1 : ((cfg3.win 1).blk t).view.emb (ix2 (0 : Fin 1) q)
      = ix2 (0 : Fin 1) ((((cfg3.win 2).blk t).view.emb (ix2 p q)) 1) := by
    funext a; apply Fin.ext
    match a with
    | ⟨0, _⟩ => show win3_1.index t (0 : Fin 2) * 1 + 1 * 0 = 0; omega
    | ⟨1, _⟩ => show win3_1.index t (1 : Fin 2) * 384 + 1 * q.val = win3_2.index t (1 : Fin 2) * 384 + 1 * q.val; omega
  rw [h0, h1]
  all_goals rfl

/-- An index of the array is in point `t`'s block iff each coordinate is in the block's range on its axis. -/
theorem mem_blk (t : Fin cfg3.N) (i : S10000x384.Idx) :
    i ∈ ((cfg3.win 2).blk t).view.set ↔ ∀ a : Fin 2, win3_2.index t a * S2000x384.size a ≤ (i a).val ∧ (i a).val < win3_2.index t a * S2000x384.size a + S2000x384.size a := by
  show i ∈ ((View.whole main_v63).slice (win3_2.rect t)).set ↔ _
  rw [View.set_slice_whole, Rect.mem_set_unit]
  exact Iff.rfl

/-- Every index lies in the block of the point its row falls in. -/
theorem cover (i : S10000x384.Idx) :
    ∃ t : Fin cfg3.N, (cfg3.win 2).flush t = true ∧ i ∈ ((cfg3.win 2).blk t).view.set := by
  have hi0 : (i 0).val < 10000 := (i 0).isLt
  have hi1 : (i 1).val < 384 := (i 1).isLt
  have hN : cfg3.N = 5 := N_3
  let t : Fin cfg3.N := ⟨(i 0).val / 2000, by rw [hN]; omega⟩
  obtain ⟨e0, e1, -⟩ := idx_facts t
  refine ⟨t, flush3_2 t, ?_⟩
  rw [mem_blk]
  intro a
  match a with
  | ⟨0, _⟩ =>
    show win3_2.index t (0 : Fin 2) * 2000 ≤ (i 0).val ∧ (i 0).val < win3_2.index t (0 : Fin 2) * 2000 + 2000
    rw [e0]; show (i 0).val / 2000 * 2000 ≤ (i 0).val ∧ (i 0).val < (i 0).val / 2000 * 2000 + 2000; omega
  | ⟨1, _⟩ =>
    show win3_2.index t (1 : Fin 2) * 384 ≤ (i 1).val ∧ (i 1).val < win3_2.index t (1 : Fin 2) * 384 + 384
    rw [e1]; omega

/-- The output array after the region: every row of the first array plus the one row of the second. -/
theorem arr_eq (c : Dev nD) : (dat3 V c).arrAt 2 cfg3.N = rowsPlus (V c main_v61) (V c main_v62) :=
  (dat3 V c).arrAt_eq_of_cover 2 _ (fun t _ => flushed_eq V c t) cover

/-- With the bias row the bias vector cast to one row, `rowsPlus` is the host's sum with the vector broadcast to a
    row and the row broadcast down the rows. -/
theorem rowsPlus_host (a : S10000x384.Idx → EReal) (b : S384.Idx → EReal) (hsc : S384.ShapeCasts S1x384)
    (h1 : S384.BroadcastsInDim S1x384 ![1]) (h2 : S1x384.BroadcastsInDim S10000x384 ![0, 1]) :
    rowsPlus a (shapeCast S1x384 b hsc)
      = addf (F := Ideal) (φ := .f32) a (broadcastInDim S10000x384 ![0, 1] h2 (broadcastInDim S1x384 ![1] h1 b)) := by
  funext i
  obtain ⟨n, q, rfl⟩ : ∃ (n : Fin 10000) (q : Fin 384), i = ix2 n q := ⟨i 0, i 1, eq_ix2 i⟩
  show a (ix2 n q) + shapeCast S1x384 b hsc (ix2 (0 : Fin 1) q)
      = a (ix2 n q) + broadcastInDim S10000x384 ![0, 1] h2 (broadcastInDim S1x384 ![1] h1 b) (ix2 n q)
  rw [shapeCast_a_1a_apply, RowOps.bias_bcast_apply b _ rfl h1 _ rfl rfl h2]

end Cert.KernelIdeal.BiasOut

end
-- ==== Proof.KernelResult.lean ====
/-
  The kernel's result, read off its run at the ideal values.  Going through the run's boundaries in order: the first
  region leaves the features times the transposed first weights; the host aggregates that over the edges; the second
  region adds the first bias and takes the positive part; the third region multiplies by the transposed second
  weights; the host aggregates again; the last region adds the second bias.  Each region's output array is the
  whole-array function its blocks tile, each host buffer is the layer function of what it reads, and the lists, the
  weights and the arguments are carried unchanged to where they are read.
-/
import proofs.«125568_j23021024706912_1_alg».proof.Proof.EntryValues
import proofs.«125568_j23021024706912_1_alg».proof.Proof.Between
import proofs.«125568_j23021024706912_1_alg».proof.Proof.Region0
import proofs.«125568_j23021024706912_1_alg».proof.Proof.Region1
import proofs.«125568_j23021024706912_1_alg».proof.Proof.Region2
import proofs.«125568_j23021024706912_1_alg».proof.Proof.Region3

set_option maxRecDepth 16384

noncomputable section

namespace Cert.KernelIdeal.Result

open Idealize.ShloMosaic Idealize.ShloMosaic.TcCoe Idealize.SL.Sem Idealize.ShloMosaic.StableHlo
open Cert.KernelIdeal Cert.KernelIdeal.Gen Cert.KernelIdeal.Layers

variable (m : (ℓ : Loc nD τ sig) → Buf (Elt Ideal) ℓ) (ρ : Dev nD → PrngReg) (c : Dev nD)

/-- The features times the transposed first weights. -/
def hidden1 : S10000x48.Idx → EReal :=
  Project1.rowsTimes (m ((c : Thread nD τ).loc main_arg0))
    (transpose S384x48 [1, 0] (m ((c : Thread nD τ).loc main_arg2)) transposes_S48x384_S384x48_1_0)

/-- Its aggregation over the edges. -/
def agg1 : S10000x48.Idx → EReal :=
  spread48 (F := Ideal) (srcs (m ((c : Thread nD τ).loc main_arg1))) (dsts (m ((c : Thread nD τ).loc main_arg1)))
    (weights (srcs (m ((c : Thread nD τ).loc main_arg1))) (dsts (m ((c : Thread nD τ).loc main_arg1)))) (hidden1 m c)

/-- The hidden activations: the positive part of the aggregation plus the first bias. -/
def act : S10000x48.Idx → EReal :=
  BiasRelu.rowsPlusPos (agg1 m c) (shapeCast S1x48 (m ((c : Thread nD τ).loc main_arg3)) shapeCasts_S48_S1x48)

/-- The activations times the transposed second weights. -/
def hidden2 : S10000x384.Idx → EReal :=
  Project2.rowsTimes (act m c)
    (transpose S48x384 [1, 0] (m ((c : Thread nD τ).loc main_arg4)) transposes_S384x48_S48x384_1_0)

/-- Its aggregation over the edges. -/
def agg2 : S10000x384.Idx → EReal :=
  spread384 (F := Ideal) (srcs (m ((c : Thread nD τ).loc main_arg1))) (dsts (m ((c : Thread nD τ).loc main_arg1)))
    (weights (srcs (m ((c : Thread nD τ).loc main_arg1))) (dsts (m ((c : Thread nD τ).loc main_arg1)))) (hidden2 m c)

/-- The result: the second aggregation plus the second bias. -/
def out : S10000x384.Idx → EReal :=
  BiasOut.rowsPlus (agg2 m c) (shapeCast S1x384 (m ((c : Thread nD τ).loc main_arg5)) shapeCasts_S384_S1x384)

/-- After the first region. -/
theorem hidden1_eq : W4 m ρ c (Proc.devRef .tc main_v31) = hidden1 m c := by
  refine (W4_arr m ρ c 2).trans ((Project1.arr_eq (V3 m ρ) c).trans ?_)
  show Project1.rowsTimes (W3 m ρ c (Proc.devRef .tc main_arg0)) (W3 m ρ c (Proc.devRef .tc main_v30)) = _
  rw [Entry.arg0_eq, Entry.w1T_eq]
  rfl

/-- After the stretch that follows it. -/
theorem agg1_eq : W5 m ρ c (Proc.devRef .tc main_v44) = agg1 m c := by
  refine (Between.agg48_eq m ρ c).trans ?_
  rw [Between.srcs4, Between.dsts4, Between.weights4, Entry.srcs_eq, Entry.dsts_eq, Entry.weights_eq, hidden1_eq]
  rfl

theorem bias1_eq : W5 m ρ c (Proc.devRef .tc main_v45)
    = shapeCast S1x48 (m ((c : Thread nD τ).loc main_arg3)) shapeCasts_S48_S1x48 := by
  refine (Between.bias1_eq m ρ c).trans ?_
  rw [Between.arg3_4, Entry.arg3_eq]

/-- After the second region. -/
theorem act_eq : W6 m ρ c (Proc.devRef .tc main_v46) = act m c := by
  refine (W6_arr m ρ c 2).trans ((BiasRelu.arr_eq (V5 m ρ) c).trans ?_)
  show BiasRelu.rowsPlusPos (W5 m ρ c (Proc.devRef .tc main_v44)) (W5 m ρ c (Proc.devRef .tc main_v45)) = _
  rw [agg1_eq, bias1_eq]
  rfl

/-- After the third region. -/
theorem hidden2_eq : W8 m ρ c (Proc.devRef .tc main_v48) = hidden2 m c := by
  refine (W8_arr m ρ c 2).trans ((Project2.arr_eq (V7 m ρ) c).trans ?_)
  show Project2.rowsTimes (W7 m ρ c (Proc.devRef .tc main_v46)) (W7 m ρ c (Proc.devRef .tc main_v47)) = _
  rw [Between.act7, act_eq, Between.w2T_eq, Between.arg4_6, Entry.arg4_eq]
  rfl

/-- After the stretch that follows it. -/
theorem agg2_eq : W9 m ρ c (Proc.devRef .tc main_v61) = agg2 m c := by
  refine (Between.agg384_eq m ρ c).trans ?_
  rw [Between.srcs8, Between.dsts8, Between.weights8, Entry.srcs_eq, Entry.dsts_eq, Entry.weights_eq, hidden2_eq]
  rfl

theorem bias2_eq : W9 m ρ c (Proc.devRef .tc main_v62)
    = shapeCast S1x384 (m ((c : Thread nD τ).loc main_arg5)) shapeCasts_S384_S1x384 := by
  refine (Between.bias2_eq m ρ c).trans ?_
  rw [Between.arg5_8, Entry.arg5_eq]

/-- After the last region: the result buffer. -/
theorem out_eq : W10 m ρ c (Proc.devRef .tc main_v63) = out m c := by
  refine (W10_arr m ρ c 2).trans ((BiasOut.arr_eq (V9 m ρ) c).trans ?_)
  show BiasOut.rowsPlus (W9 m ρ c (Proc.devRef .tc main_v61)) (W9 m ρ c (Proc.devRef .tc main_v62)) = _
  rw [agg2_eq, bias2_eq]
  rfl

end Cert.KernelIdeal.Result

end
-- ==== Proof.SameFunction.lean ====
/-
  The kernel's result and the reference's result are one function of the six arguments.
  Spelt with the host's operations, the kernel's result is: the second aggregation — of the product of the hidden
  activations with the transposed second weights — plus the second bias broadcast down the rows, where the hidden
  activations are the positive part of the first aggregation — of the product of the features with the transposed first
  weights — plus the first bias.  The reference program computes exactly this chain (it recomputes the degrees and the edge
  weights for its second layer, from the same edge list, by the same operations), so after each region's whole-array
  function is rewritten in the host's spelling the two terms coincide operation by operation.
-/
import proofs.«125568_j23021024706912_1_alg».proof.Proof.KernelResult
import proofs.«125568_j23021024706912_1_alg».proof.Proof.RefRun

set_option maxRecDepth 16384

noncomputable section

namespace Cert.SameFunction

open Idealize.ShloMosaic Idealize.SL.Sem
open Cert.KernelIdeal.Layers

section AnyValues
variable {F : FTy → Type} [FloatOps F]

set_option maxHeartbeats 2000000 in
/-- The reference's composed term is the chain of layers, in the host's spelling, of its own arguments. -/
theorem reference_is_chain (m' : (ℓ : Loc Cert.ReferenceIdeal.nD Cert.ReferenceIdeal.τ Cert.ReferenceIdeal.sig) → Buf (Elt F) ℓ) (c : Dev Cert.ReferenceIdeal.nD) :
    addf (spread384 (srcs (m' ((c.tc : Thread Cert.ReferenceIdeal.nD Cert.ReferenceIdeal.τ).loc Cert.ReferenceIdeal.main_arg1)))
        (dsts (m' ((c.tc : Thread Cert.ReferenceIdeal.nD Cert.ReferenceIdeal.τ).loc Cert.ReferenceIdeal.main_arg1)))
        (weights (srcs (m' ((c.tc : Thread Cert.ReferenceIdeal.nD Cert.ReferenceIdeal.τ).loc Cert.ReferenceIdeal.main_arg1))) (dsts (m' ((c.tc : Thread Cert.ReferenceIdeal.nD Cert.ReferenceIdeal.τ).loc Cert.ReferenceIdeal.main_arg1))))
        (Host.dotGeneral Cert.ReferenceIdeal.dot_S10000x48_S48x384_S10000x384_1_0_0_1_n_n none
          (maximumf
            (addf (spread48 (srcs (m' ((c.tc : Thread Cert.ReferenceIdeal.nD Cert.ReferenceIdeal.τ).loc Cert.ReferenceIdeal.main_arg1)))
                (dsts (m' ((c.tc : Thread Cert.ReferenceIdeal.nD Cert.ReferenceIdeal.τ).loc Cert.ReferenceIdeal.main_arg1)))
                (weights (srcs (m' ((c.tc : Thread Cert.ReferenceIdeal.nD Cert.ReferenceIdeal.τ).loc Cert.ReferenceIdeal.main_arg1))) (dsts (m' ((c.tc : Thread Cert.ReferenceIdeal.nD Cert.ReferenceIdeal.τ).loc Cert.ReferenceIdeal.main_arg1))))
                (Host.dotGeneral Cert.ReferenceIdeal.dot_S10000x384_S384x48_S10000x48_1_0_0_1_n_n none
                  (m' ((c.tc : Thread Cert.ReferenceIdeal.nD Cert.ReferenceIdeal.τ).loc Cert.ReferenceIdeal.main_arg0))
                  (transpose Cert.ReferenceIdeal.S384x48 [1, 0] (m' ((c.tc : Thread Cert.ReferenceIdeal.nD Cert.ReferenceIdeal.τ).loc Cert.ReferenceIdeal.main_arg2)) Cert.ReferenceIdeal.Gen.transposes_S48x384_S384x48_1_0)))
              (broadcastInDim Cert.ReferenceIdeal.S10000x48 ![0, 1] Cert.ReferenceIdeal.Gen.bcast_S1x48_S10000x48_0_1
                (broadcastInDim Cert.ReferenceIdeal.S1x48 ![1] Cert.ReferenceIdeal.Gen.bcast_S48_S1x48_1 (m' ((c.tc : Thread Cert.ReferenceIdeal.nD Cert.ReferenceIdeal.τ).loc Cert.ReferenceIdeal.main_arg3)))))
            (broadcastInDim Cert.ReferenceIdeal.S10000x48 ![] Cert.ReferenceIdeal.Gen.bcast_S_S10000x48 (constant Cert.ReferenceIdeal.S_ .f32 0x00000000#32)))
          (transpose Cert.ReferenceIdeal.S48x384 [1, 0] (m' ((c.tc : Thread Cert.ReferenceIdeal.nD Cert.ReferenceIdeal.τ).loc Cert.ReferenceIdeal.main_arg4)) Cert.ReferenceIdeal.Gen.transposes_S384x48_S48x384_1_0)))
      (broadcastInDim Cert.ReferenceIdeal.S10000x384 ![0, 1] Cert.ReferenceIdeal.Gen.bcast_S1x384_S10000x384_0_1
        (broadcastInDim Cert.ReferenceIdeal.S1x384 ![1] Cert.ReferenceIdeal.Gen.bcast_S384_S1x384_1 (m' ((c.tc : Thread Cert.ReferenceIdeal.nD Cert.ReferenceIdeal.τ).loc Cert.ReferenceIdeal.main_arg5))))
    = Cert.ReferenceIdeal.ValueP.res_main_v89 m' c := by
  unfold Cert.ReferenceIdeal.ValueP.res_main_v89 spread384 spread48 weights invRoot degree wrap srcs dsts
  rfl

end AnyValues

open Cert.KernelIdeal Cert.KernelIdeal.Gen

/-- The kernel's result is the reference's composed term of arguments that agree. -/
theorem out_eq_reference
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.KernelIdeal.Result.out m c = Cert.ReferenceIdeal.ValueP.res_main_v89 (F := Ideal) m' c := by
  unfold Cert.KernelIdeal.Result.out Cert.KernelIdeal.Result.agg2 Cert.KernelIdeal.Result.hidden2 Cert.KernelIdeal.Result.act
    Cert.KernelIdeal.Result.agg1 Cert.KernelIdeal.Result.hidden1
  rw [← h0, ← h1, ← h2, ← h3, ← h4, ← h5]
  rw [Cert.KernelIdeal.BiasOut.rowsPlus_host _ _ _ Cert.ReferenceIdeal.Gen.bcast_S384_S1x384_1 Cert.ReferenceIdeal.Gen.bcast_S1x384_S10000x384_0_1,
    Cert.KernelIdeal.Project2.rowsTimes_host _ _ Cert.ReferenceIdeal.dot_S10000x48_S48x384_S10000x384_1_0_0_1_n_n rfl,
    Cert.KernelIdeal.BiasRelu.rowsPlusPos_host _ _ _ Cert.ReferenceIdeal.Gen.bcast_S48_S1x48_1 Cert.ReferenceIdeal.Gen.bcast_S1x48_S10000x48_0_1 Cert.ReferenceIdeal.Gen.bcast_S_S10000x48,
    Cert.KernelIdeal.Project1.rowsTimes_host _ _ Cert.ReferenceIdeal.dot_S10000x384_S384x48_S10000x48_1_0_0_1_n_n rfl]
  exact reference_is_chain (F := Ideal) m' c

end Cert.SameFunction

end
-- ==== Proof.lean ====
/-
  A two-layer graph convolution: four tiled kernel regions (two matrix products, a bias with positive part, a bias)
  among host operations that build the edge weights and aggregate over the edges, against a plain host reference.

  Both programs compute, for node features `x`, an edge list with a self-loop per node appended, weights `W1`, `W2` and
  biases `b1`, `b2`:  out = A (relu (A (x W1ᵀ) + b1) W2ᵀ) + b2,  where `A h` gathers the source rows of `h`, scales each
  by the product of the two ends' inverse root degrees, and scatter-adds them into the destination rows.
  At the ideal values the kernel's narrowing of the matrix operands is the identity and each tiled product is the exact
  sum over the contracted axis, which is what the host's `dot_general` is; the bias rows and the positive part agree
  entry by entry; the aggregation is the same host operations in both programs.  No algebraic law beyond that is used,
  so the finiteness of the inputs is never opened.

  The frames of the two kernel programs are the generated ones; the reference's frame is its run with the result
  dropped; the idealization rewrote nothing.  For the value, the kernel program's run is read with the result buffer
  named, each region's output array is the whole-array function its five row blocks tile, and the resulting chain is
  the reference's composed term.
-/
import proofs.«125568_j23021024706912_1_alg».proof.Defs
import proofs.«125568_j23021024706912_1_alg».proof.Proof.Gen.Kernel
import proofs.«125568_j23021024706912_1_alg».proof.Proof.Gen.Kernel.Frame
import proofs.«125568_j23021024706912_1_alg».proof.Proof.Gen.KernelIdeal
import proofs.«125568_j23021024706912_1_alg».proof.Proof.Gen.KernelIdeal.Frame
import proofs.«125568_j23021024706912_1_alg».proof.Proof.Gen.ReferenceIdeal
import proofs.«125568_j23021024706912_1_alg».proof.Proof.Gen.Pre_finite_inputs
import proofs.«125568_j23021024706912_1_alg».proof.Proof.KRun
import proofs.«125568_j23021024706912_1_alg».proof.Proof.RefRun
import proofs.«125568_j23021024706912_1_alg».proof.Proof.KernelResult
import proofs.«125568_j23021024706912_1_alg».proof.Proof.SameFunction
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both runs end with the result buffer at the one chain of layers of the (agreeing) arguments. -/
theorem algebraic : Cert.algebraic_KernelIdeal_ReferenceIdeal := by
  intro m ρ m' ρ' _ hagree
  refine ⟨fun c => Cert.KernelIdeal.Result.out m c, ?_, ?_⟩
  · exact (θ_run Cert.KernelIdeal.defs _ _).mono
      (fun r h c => ⟨(h c).1.trans (Cert.KernelIdeal.Result.out_eq m ρ c), (h c).2⟩)
      (Cert.KernelIdeal.Gen.run_named (F := Ideal) m ρ)
  · exact (θ_run Cert.ReferenceIdeal.defs _ _).mono
      (fun r h c => ⟨(h c).1.trans (Cert.SameFunction.out_eq_reference m m' c (hagree c).1 (hagree c).2.1 (hagree c).2.2.1
          (hagree c).2.2.2.1 (hagree c).2.2.2.2.1 (hagree c).2.2.2.2.2).symm, (h c).2⟩)
      (Cert.ReferenceIdeal.ValueP.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
